-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S65536x256 : S_.BroadcastsInDim S65536x256 (![] : Fin 0 → Fin S65536x256.rank)
  reducesTo_S65536x256_S_d0_1 : S65536x256.ReducesTo [0, 1] S_
  bcast_S_S6x256x256 : S_.BroadcastsInDim S6x256x256 (![] : Fin 0 → Fin S6x256x256.rank)
  reducesTo_S6x256x256_S_d0_1_2 : S6x256x256.ReducesTo [0, 1, 2] S_
  bcast_S_S6x256x128 : S_.BroadcastsInDim S6x256x128 (![] : Fin 0 → Fin S6x256x128.rank)
  reducesTo_S6x256x128_S_d0_1_2 : S6x256x128.ReducesTo [0, 1, 2] S_
  bcast_S_S5x256x256 : S_.BroadcastsInDim S5x256x256 (![] : Fin 0 → Fin S5x256x256.rank)
  reducesTo_S5x256x256_S_d0_1_2 : S5x256x256.ReducesTo [0, 1, 2] S_
  bcast_S_S256x1 : S_.BroadcastsInDim S256x1 (![] : Fin 0 → Fin S256x1.rank)
  reducesTo_S256x1_S_d0_1 : S256x1.ReducesTo [0, 1] S_
  bcast_S_S6x256 : S_.BroadcastsInDim S6x256 (![] : Fin 0 → Fin S6x256.rank)
  reducesTo_S6x256_S_d0_1 : S6x256.ReducesTo [0, 1] S_

variable [Facts]

def fn_part2 {F : FTy → Type} [FloatOps F] (main_arg7 : FVec F S256x1 .f32) (main_arg8 : FVec F S6x256 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S6x256 .f32 := Host.absf main_arg8
  let main_cst_14 : FVec F S_ .f32 := constant S_ .f32 0x7F800000#32
  let main_v40 : FVec F S6x256 .f32 := broadcastInDim S6x256 ![] bcast_S_S6x256 main_cst_14
  let main_v41 : IVec S6x256 1 := cmpf .olt main_v39 main_v40
  let main_c_15 : IVec S_ 1 := constantI S_ 1 1#1
  let main_v42 : IVec S_ 1 := (fun x v => Host.reduce IntOp.andi x v reducesTo_S6x256_S_d0_1 h_S_) main_v41 main_c_15
  let main_v43 : IVec S_ 1 := andi main_v38 main_v42
  main_v43

def fn_part1 {F : FTy → Type} [FloatOps F] (main_arg4 : FVec F S6x256x256 .f32) (main_arg5 : FVec F S6x256x128 .f32) (main_arg6 : FVec F S5x256x256 .f32) (main_arg7 : FVec F S256x1 .f32) (main_arg8 : FVec F S6x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S6x256x256 .f32 := Host.absf main_arg4
  let main_cst_6 : FVec F S_ .f32 := constant S_ .f32 0x7F800000#32
  let main_v20 : FVec F S6x256x256 .f32 := broadcastInDim S6x256x256 ![] bcast_S_S6x256x256 main_cst_6
  let main_v21 : IVec S6x256x256 1 := cmpf .olt main_v19 main_v20
  let main_c_7 : IVec S_ 1 := constantI S_ 1 1#1
  let main_v22 : IVec S_ 1 := (fun x v => Host.reduce IntOp.andi x v reducesTo_S6x256x256_S_d0_1_2 h_S_) main_v21 main_c_7
  let main_v23 : IVec S_ 1 := andi main_v18 main_v22
  let main_v24 : FVec F S6x256x128 .f32 := Host.absf main_arg5
  let main_cst_8 : FVec F S_ .f32 := constant S_ .f32 0x7F800000#32
  let main_v25 : FVec F S6x256x128 .f32 := broadcastInDim S6x256x128 ![] bcast_S_S6x256x128 main_cst_8
  let main_v26 : IVec S6x256x128 1 := cmpf .olt main_v24 main_v25
  let main_c_9 : IVec S_ 1 := constantI S_ 1 1#1
  let main_v27 : IVec S_ 1 := (fun x v => Host.reduce IntOp.andi x v reducesTo_S6x256x128_S_d0_1_2 h_S_) main_v26 main_c_9
  let main_v28 : IVec S_ 1 := andi main_v23 main_v27
  let main_v29 : FVec F S5x256x256 .f32 := Host.absf main_arg6
  let main_cst_10 : FVec F S_ .f32 := constant S_ .f32 0x7F800000#32
  let main_v30 : FVec F S5x256x256 .f32 := broadcastInDim S5x256x256 ![] bcast_S_S5x256x256 main_cst_10
  let main_v31 : IVec S5x256x256 1 := cmpf .olt main_v29 main_v30
  let main_c_11 : IVec S_ 1 := constantI S_ 1 1#1
  let main_v32 : IVec S_ 1 := (fun x v => Host.reduce IntOp.andi x v reducesTo_S5x256x256_S_d0_1_2 h_S_) main_v31 main_c_11
  let main_v33 : IVec S_ 1 := andi main_v28 main_v32
  fn_part2 (F := F) main_arg7 main_arg8 main_v33

def fn {F : FTy → Type} [FloatOps F] (main_arg0 : FVec F S65536x128 .f32) (main_arg1 : FVec F S65536x1 .f32) (main_arg2 : FVec F S65536x256 .f32) (main_arg3 : FVec F S65536x256 .f32) (main_arg4 : FVec F S6x256x256 .f32) (main_arg5 : FVec F S6x256x128 .f32) (main_arg6 : FVec F S5x256x256 .f32) (main_arg7 : FVec F S256x1 .f32) (main_arg8 : FVec F S6x256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_v13 main_v16
-- ==== Kernel.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S1024x128 : Shape := ⟨2, ![1024, 128]⟩
abbrev S1024x1 : Shape := ⟨2, ![1024, 1]⟩
abbrev S1024x256 : Shape := ⟨2, ![1024, 256]⟩
abbrev S1x256 : Shape := ⟨2, ![1, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩

abbrev nBuf : Space → Nat
  | .hbm => 11
  | .vmem => 17
  | .smem => 0
  | _ => 0

abbrev bufTy : (tb : Table) → Fin (tcTables nBuf tb) → BufTy
  | .hbm, ⟨0, _⟩ => ⟨S65536x128, .f32⟩
  | .hbm, ⟨1, _⟩ => ⟨S65536x1, .f32⟩
  | .hbm, ⟨2, _⟩ => ⟨S65536x256, .f32⟩
  | .hbm, ⟨3, _⟩ => ⟨S65536x256, .f32⟩
  | .hbm, ⟨4, _⟩ => ⟨S6x256x256, .f32⟩
  | .hbm, ⟨5, _⟩ => ⟨S6x256x128, .f32⟩
  | .hbm, ⟨6, _⟩ => ⟨S5x256x256, .f32⟩
  | .hbm, ⟨7, _⟩ => ⟨S256x1, .f32⟩
  | .hbm, ⟨8, _⟩ => ⟨S6x256, .f32⟩
  | .hbm, ⟨9, _⟩ => ⟨S65536x256, .f32⟩
  | .hbm, ⟨10, _⟩ => ⟨S65536x256, .f32⟩
  | .local _ .vmem, ⟨0, _⟩ => ⟨S1024x128, .f32⟩
  | .local _ .vmem, ⟨1, _⟩ => ⟨S1024x128, .f32⟩
  | .local _ .vmem, ⟨2, _⟩ => ⟨S1024x1, .f32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S6x256x256, .f32⟩
  | .local _ .vmem, ⟨9, _⟩ => ⟨S6x256x128, .f32⟩
  | .local _ .vmem, ⟨10, _⟩ => ⟨S5x256x256, .f32⟩
  | .local _ .vmem, ⟨11, _⟩ => ⟨S256x1, .f32⟩
  | .local _ .vmem, ⟨12, _⟩ => ⟨S6x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  inb_S256x1_S256x1_0_0 : ∀ a, (![0, 0] : Fin 2 → Nat) a + S256x1.size a ≤ S256x1.size a
  h_S256x1 : 0 < S256x1.numel
  transposes_S256x1_p1_0_S1x256 : S256x1.Transposes [1, 0] S1x256
  inb_S6x256x256_S1x256x256_0_0_0 : ∀ a, (![0, 0, 0] : Fin 3 → Nat) a + S1x256x256.size a ≤ S6x256x256.size a
  h_S1x256x256 : 0 < S1x256x256.numel
  shapeCasts_S1x256x256_S256x256 : S1x256x256.ShapeCasts S256x256
  transposes_S256x256_p1_0_S256x256 : S256x256.Transposes [1, 0] S256x256
  inb_S6x256x128_S1x256x128_0_0_0 : ∀ a, (![0, 0, 0] : Fin 3 → Nat) a + S1x256x128.size a ≤ S6x256x128.size a
  h_S1x256x128 : 0 < S1x256x128.numel
  shapeCasts_S1x256x128_S256x128 : S1x256x128.ShapeCasts S256x128
  transposes_S256x128_p1_0_S128x256 : S256x128.Transposes [1, 0] S128x256
  broadcasts_S1024x1_S1024x256 : S1024x1.Broadcasts S1024x256
  broadcasts_S1x256_S1024x256 : S1x256.Broadcasts S1024x256
  inb_S6x256_S1x256_0_0 : ∀ a, (![0, 0] : Fin 2 → Nat) a + S1x256.size a ≤ S6x256.size a
  h_S1x256 : 0 < S1x256.numel
  shapeCasts_S1x256_S256 : S1x256.ShapeCasts S256
  shapeCasts_S256_S1x256 : S256.ShapeCasts S1x256
  inb_S6x256x256_S1x256x256_1_0_0 : ∀ a, (![1, 0, 0] : Fin 3 → Nat) a + S1x256x256.size a ≤ S6x256x256.size a
  inb_S6x256x128_S1x256x128_1_0_0 : ∀ a, (![1, 0, 0] : Fin 3 → Nat) a + S1x256x128.size a ≤ S6x256x128.size a
  inb_S5x256x256_S1x256x256_0_0_0 : ∀ a, (![0, 0, 0] : Fin 3 → Nat) a + S1x256x256.size a ≤ S5x256x256.size a
  inb_S6x256_S1x256_1_0 : ∀ a, (![1, 0] : Fin 2 → Nat) a + S1x256.size a ≤ S6x256.size a
  inb_S6x256x256_S1x256x256_2_0_0 : ∀ a, (![2, 0, 0] : Fin 3 → Nat) a + S1x256x256.size a ≤ S6x256x256.size a
  inb_S6x256x128_S1x256x128_2_0_0 : ∀ a, (![2, 0, 0] : Fin 3 → Nat) a + S1x256x128.size a ≤ S6x256x128.size a
  inb_S5x256x256_S1x256x256_1_0_0 : ∀ a, (![1, 0, 0] : Fin 3 → Nat) a + S1x256x256.size a ≤ S5x256x256.size a
  inb_S6x256_S1x256_2_0 : ∀ a, (![2, 0] : Fin 2 → Nat) a + S1x256.size a ≤ S6x256.size a
  inb_S6x256x256_S1x256x256_3_0_0 : ∀ a, (![3, 0, 0] : Fin 3 → Nat) a + S1x256x256.size a ≤ S6x256x256.size a
  inb_S6x256x128_S1x256x128_3_0_0 : ∀ a, (![3, 0, 0] : Fin 3 → Nat) a + S1x256x128.size a ≤ S6x256x128.size a
  inb_S5x256x256_S1x256x256_2_0_0 : ∀ a, (![2, 0, 0] : Fin 3 → Nat) a + S1x256x256.size a ≤ S5x256x256.size a
  inb_S6x256_S1x256_3_0 : ∀ a, (![3, 0] : Fin 2 → Nat) a + S1x256.size a ≤ S6x256.size a
  inb_S6x256x256_S1x256x256_4_0_0 : ∀ a, (![4, 0, 0] : Fin 3 → Nat) a + S1x256x256.size a ≤ S6x256x256.size a
  inb_S6x256x128_S1x256x128_4_0_0 : ∀ a, (![4, 0, 0] : Fin 3 → Nat) a + S1x256x128.size a ≤ S6x256x128.size a
  inb_S5x256x256_S1x256x256_3_0_0 : ∀ a, (![3, 0, 0] : Fin 3 → Nat) a + S1x256x256.size a ≤ S5x256x256.size a
  inb_S6x256_S1x256_4_0 : ∀ a, (![4, 0] : Fin 2 → Nat) a + S1x256.size a ≤ S6x256.size a
  inb_S6x256x256_S1x256x256_5_0_0 : ∀ a, (![5, 0, 0] : Fin 3 → Nat) a + S1x256x256.size a ≤ S6x256x256.size a
  inb_S6x256x128_S1x256x128_5_0_0 : ∀ a, (![5, 0, 0] : Fin 3 → Nat) a + S1x256x128.size a ≤ S6x256x128.size a
  inb_S5x256x256_S1x256x256_4_0_0 : ∀ a, (![4, 0, 0] : Fin 3 → Nat) a + S1x256x256.size a ≤ S5x256x256.size a
  inb_S6x256_S1x256_5_0 : ∀ a, (![5, 0] : Fin 2 → Nat) a + S1x256.size a ≤ S6x256.size a
  dot_S1024x256_S256x256_S1024x256_1_0_0_1_n_n_wf : DotDims.WF S1024x256 S256x256 S1024x256 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x256x256.size a ≤ S6x256x256.size a
  hwx0_4 : ∀ i : grid0.Coords, EltTy.bits .f32 = 32 ∨ (Rect.block (s := S6x256x256) S6x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x256x128.size a ≤ S6x256x128.size a
  hwx0_5 : ∀ i : grid0.Coords, EltTy.bits .f32 = 32 ∨ (Rect.block (s := S6x256x128) S6x256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x256x256.size a ≤ S5x256x256.size a
  hwx0_6 : ∀ i : grid0.Coords, EltTy.bits .f32 = 32 ∨ (Rect.block (s := S5x256x256) S5x256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x256.size a ≤ S6x256.size a
  hwx0_8 : ∀ i : grid0.Coords, EltTy.bits .f32 = 32 ∨ (Rect.block (s := S6x256) S6x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S6x256x65536 : Shape := ⟨3, ![6, 256, 65536]⟩
abbrev S6x65536x256 : Shape := ⟨3, ![6, 65536, 256]⟩
abbrev S1x65536x256 : Shape := ⟨3, ![1, 65536, 256]⟩
abbrev S1x256 : Shape := ⟨2, ![1, 256]⟩
abbrev S256 : Shape := ⟨1, ![256]⟩
abbrev S5x256x65536 : Shape := ⟨3, ![5, 256, 65536]⟩
abbrev S5x65536x256 : Shape := ⟨3, ![5, 65536, 256]⟩
abbrev S5x256 : Shape := ⟨2, ![5, 256]⟩
abbrev S5x1x256 : Shape := ⟨3, ![5, 1, 256]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x1, .f32⟩
  | .hbm, ⟨2, _⟩ => ⟨S65536x256, .f32⟩
  | .hbm, ⟨3, _⟩ => ⟨S65536x256, .f32⟩
  | .hbm, ⟨4, _⟩ => ⟨S6x256x256, .f32⟩
  | .hbm, ⟨5, _⟩ => ⟨S6x256x128, .f32⟩
  | .hbm, ⟨6, _⟩ => ⟨S5x256x256, .f32⟩
  | .hbm, ⟨7, _⟩ => ⟨S256x1, .f32⟩
  | .hbm, ⟨8, _⟩ => ⟨S6x256, .f32⟩
  | .hbm, ⟨9, _⟩ => ⟨S6x256x65536, .f32⟩
  | .hbm, ⟨10, _⟩ => ⟨S6x65536x256, .f32⟩
  | .hbm, ⟨11, _⟩ => ⟨S6x256x65536, .f32⟩
  | .hbm, ⟨12, _⟩ => ⟨S6x65536x256, .f32⟩
  | .hbm, ⟨13, _⟩ => ⟨S1x65536x256, .f32⟩
  | .hbm, ⟨14, _⟩ => ⟨S65536x256, .f32⟩
  | .hbm, ⟨15, _⟩ => ⟨S1x65536x256, .f32⟩
  | .hbm, ⟨16, _⟩ => ⟨S65536x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S1x256, .f32⟩
  | .hbm, ⟨22, _⟩ => ⟨S256, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S5x256x65536, .f32⟩
  | .hbm, ⟨28, _⟩ => ⟨S5x65536x256, .f32⟩
  | .hbm, ⟨29, _⟩ => ⟨S5x65536x256, .f32⟩
  | .hbm, ⟨30, _⟩ => ⟨S5x65536x256, .f32⟩
  | .hbm, ⟨31, _⟩ => ⟨S5x65536x256, .f32⟩
  | .hbm, ⟨32, _⟩ => ⟨S5x65536x256, .f32⟩
  | .hbm, ⟨33, _⟩ => ⟨S5x256, .f32⟩
  | .hbm, ⟨34, _⟩ => ⟨S5x1x256, .f32⟩
  | .hbm, ⟨35, _⟩ => ⟨S5x65536x256, .f32⟩
  | .hbm, ⟨36, _⟩ => ⟨S5x65536x256, .f32⟩
  | .hbm, ⟨37, _⟩ => ⟨S1x65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S1x65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S65536x256, .f32⟩
  | .hbm, ⟨53, _⟩ => ⟨S65536x256, .f32⟩
  | .hbm, ⟨54, _⟩ => ⟨S_, .f32⟩
  | .hbm, ⟨55, _⟩ => ⟨S65536x256, .f32⟩
  | .hbm, ⟨56, _⟩ => ⟨S65536x256, .f32⟩
  | .hbm, ⟨57, _⟩ => ⟨S1x65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S1x65536x256, .f32⟩
  | .hbm, ⟨68, _⟩ => ⟨S65536x256, .f32⟩
  | .hbm, ⟨69, _⟩ => ⟨S65536x256, .f32⟩
  | .hbm, ⟨70, _⟩ => ⟨S1x65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S_, .f32⟩
  | .hbm, ⟨75, _⟩ => ⟨S65536x256, .f32⟩
  | .hbm, ⟨76, _⟩ => ⟨S65536x256, .f32⟩
  | .hbm, ⟨77, _⟩ => ⟨S_, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]

class Facts₀ : Prop where
  transposes_S6x256x65536_S6x65536x256_0_2_1 : S6x256x65536.Transposes [0, 2, 1] S6x65536x256
  slices_S6x65536x256_S1x65536x256_0_0_0 : S6x65536x256.Slices ![0, 0, 0] S1x65536x256
  shapeCasts_S1x65536x256_S65536x256 : S1x65536x256.ShapeCasts S65536x256
  transposes_S256x1_S1x256_1_0 : S256x1.Transposes [1, 0] S1x256
  slices_S6x256_S1x256_0_0 : S6x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S5x256x65536_S5x65536x256_0_2_1 : S5x256x65536.Transposes [0, 2, 1] S5x65536x256
  slices_S6x65536x256_S5x65536x256_1_0_0 : S6x65536x256.Slices ![1, 0, 0] S5x65536x256
  slices_S6x256_S5x256_1_0 : S6x256.Slices ![1, 0] S5x256
  bcast_S5x256_S5x1x256_0_2 : S5x256.BroadcastsInDim S5x1x256 (![0, 2] : Fin 2 → Fin S5x1x256.rank)
  bcast_S5x1x256_S5x65536x256_0_1_2 : S5x1x256.BroadcastsInDim S5x65536x256 (![0, 1, 2] : Fin 3 → Fin S5x65536x256.rank)
  slices_S5x65536x256_S1x65536x256_0_0_0 : S5x65536x256.Slices ![0, 0, 0] S1x65536x256
  bcast_S_S65536x256 : S_.BroadcastsInDim S65536x256 (![] : Fin 0 → Fin S65536x256.rank)
  slices_S5x65536x256_S1x65536x256_1_0_0 : S5x65536x256.Slices ![1, 0, 0] S1x65536x256
  slices_S5x65536x256_S1x65536x256_2_0_0 : S5x65536x256.Slices ![2, 0, 0] S1x65536x256
  slices_S5x65536x256_S1x65536x256_3_0_0 : S5x65536x256.Slices ![3, 0, 0] S1x65536x256
  slices_S5x65536x256_S1x65536x256_4_0_0 : S5x65536x256.Slices ![4, 0, 0] S1x65536x256
  dot_S6x256x256_S65536x256_S6x256x65536_2_1_01_0_n_n_wf : DotDims.WF S6x256x256 S65536x256 S6x256x65536 [2] [1] [0, 1] [0] [] []
  dot_S6x256x128_S65536x128_S6x256x65536_2_1_01_0_n_n_wf : DotDims.WF S6x256x128 S65536x128 S6x256x65536 [2] [1] [0, 1] [0] [] []
  dot_S65536x1_S1x256_S65536x256_1_0_0_1_n_n_wf : DotDims.WF S65536x1 S1x256 S65536x256 [1] [0] [0] [1] [] []
  dot_S5x256x256_S65536x256_S5x256x65536_2_1_01_0_n_n_wf : DotDims.WF S5x256x256 S65536x256 S5x256x65536 [2] [1] [0, 1] [0] [] []

variable [Facts₀]

def dot_S6x256x256_S65536x256_S6x256x65536_2_1_01_0_n_n : DotDims S6x256x256 S65536x256 S6x256x65536 where
  lhsContracting := [2]
  rhsContracting := [1]
  lhsNonContracting := [0, 1]
  rhsNonContracting := [0]
  lhsBatch := []
  rhsBatch := []
  wf := dot_S6x256x256_S65536x256_S6x256x65536_2_1_01_0_n_n_wf
def dot_S6x256x128_S65536x128_S6x256x65536_2_1_01_0_n_n : DotDims S6x256x128 S65536x128 S6x256x65536 where
  lhsContracting := [2]
  rhsContracting := [1]
  lhsNonContracting := [0, 1]
  rhsNonContracting := [0]
  lhsBatch := []
  rhsBatch := []
  wf := dot_S6x256x128_S65536x128_S6x256x65536_2_1_01_0_n_n_wf
def dot_S65536x1_S1x256_S65536x256_1_0_0_1_n_n : DotDims S65536x1 S1x256 S65536x256 where
  lhsContracting := [1]
  rhsContracting := [0]
  lhsNonContracting := [0]
  rhsNonContracting := [1]
  lhsBatch := []
  rhsBatch := []
  wf := dot_S65536x1_S1x256_S65536x256_1_0_0_1_n_n_wf
def dot_S5x256x256_S65536x256_S5x256x65536_2_1_01_0_n_n : DotDims S5x256x256 S65536x256 S5x256x65536 where
  lhsContracting := [2]
  rhsContracting := [1]
  lhsNonContracting := [0, 1]
  rhsNonContracting := [0]
  lhsBatch := []
  rhsBatch := []
  wf := dot_S5x256x256_S65536x256_S5x256x65536_2_1_01_0_n_n_wf

class Facts : Prop extends Facts₀ where

variable [Facts]
-- ==== Proof.Cell.lean ====
/-
  The cell, one batch row at a time. A row of the batch carries `hr` (256 entries of h_prev), `xr` (128 entries of x_t),
  `cr` (256 entries of c_prev) and the scalar `d` (its delta_t). Every gate is an affine function of the row followed by
  a squashing function, and the weights enter only through inner products with a weight row:

    s   = tanh (⟨hr, Wh₀ o⟩ + ⟨xr, Wx₀ o⟩ + d · Wst o + b₀ o)
    pre g j = ⟨hr, Wh_g o⟩ + ⟨xr, Wx_g o⟩ + ⟨s, Ws_j o⟩ + b_g o            (g = 1 … 5, j = g − 1)
    c'  = σ (pre 1 0) · cr o + σ (pre 2 1) · tanh (pre 4 3) + σ (pre 3 2) · s o
    h'  = σ (pre 5 4) · tanh c'

  on the extended reals, σ the logistic function. The sums are associated to the left, in the order written: that is the
  order in which both programs add, so no rearrangement of a sum is ever needed; the one algebraic law used anywhere is
  the commutativity of the product inside an inner product.
-/
import Idealize.ShloMosaic.PureOps.Ideal
import Idealize.ShloMosaic.Lib.ValueIdx

noncomputable section

namespace Cert.Cell

open Idealize.ShloMosaic Idealize.ShloMosaic.ValueIdx

/-- The stacked recurrent weights `[6, 256, 256]`, input weights `[6, 256, 128]`, state weights `[5, 256, 256]`, the
    time-gap column `[256, 1]` and the biases `[6, 256]`, as functions of an index. -/
abbrev WH := (⟨3, ![6, 256, 256]⟩ : Shape).Idx → EReal
abbrev WX := (⟨3, ![6, 256, 128]⟩ : Shape).Idx → EReal
abbrev WS := (⟨3, ![5, 256, 256]⟩ : Shape).Idx → EReal
abbrev WT := (⟨2, ![256, 1]⟩ : Shape).Idx → EReal
abbrev BB := (⟨2, ![6, 256]⟩ : Shape).Idx → EReal

/-- The inner product of a data row with a weight row, the data on the left of each product. -/
def inner {n : Nat} (u w : Fin n → EReal) : EReal := ∑ k : Fin n, u k * w k

/-- The same with the weight on the left of each product: the products commute. -/
theorem inner_comm {n : Nat} (u w : Fin n → EReal) : (∑ k : Fin n, w k * u k) = inner u w :=
  Finset.sum_congr rfl fun k _ => mul_comm (w k) (u k)

/-- A one-term sum is its term. -/
theorem sum_fin_one (f : Fin 1 → EReal) : (∑ k : Fin 1, f k) = f 0 := by
  rw [Fin.sum_univ_succ, Fin.sum_univ_zero, add_zero]

variable (Wh : WH) (Wx : WX) (Ws : WS) (Wst : WT) (b : BB)

/-- The time-aware state `s` of a row at output `o`. -/
def state (hr : Fin 256 → EReal) (xr : Fin 128 → EReal) (d : EReal) (o : Fin 256) : EReal :=
  Ideal.tanh (inner hr (fun k => Wh (ix3 (0 : Fin 6) o k)) + inner xr (fun k => Wx (ix3 (0 : Fin 6) o k))
    + d * Wst (ix2 o (0 : Fin 1)) + b (ix2 (0 : Fin 6) o))

/-- Gate `g`'s pre-activation at output `o`, its state weights the slab `j`, from the row and its state `sr`. -/
def pre (g : Fin 6) (j : Fin 5) (hr : Fin 256 → EReal) (xr : Fin 128 → EReal) (sr : Fin 256 → EReal) (o : Fin 256) : EReal :=
  inner hr (fun k => Wh (ix3 g o k)) + inner xr (fun k => Wx (ix3 g o k)) + inner sr (fun k => Ws (ix3 j o k)) + b (ix2 g o)

/-- The new cell state of a row at output `o`: forget · c_prev + input · candidate + time · state. -/
def newC (hr : Fin 256 → EReal) (xr : Fin 128 → EReal) (cr : Fin 256 → EReal) (d : EReal) (o : Fin 256) : EReal :=
  Ideal.logistic (pre Wh Wx Ws b 1 0 hr xr (state Wh Wx Wst b hr xr d) o) * cr o
    + Ideal.logistic (pre Wh Wx Ws b 2 1 hr xr (state Wh Wx Wst b hr xr d) o)
      * Ideal.tanh (pre Wh Wx Ws b 4 3 hr xr (state Wh Wx Wst b hr xr d) o)
    + Ideal.logistic (pre Wh Wx Ws b 3 2 hr xr (state Wh Wx Wst b hr xr d) o) * state Wh Wx Wst b hr xr d o

/-- The new hidden state of a row at output `o`: output gate · tanh of the new cell state. -/
def newH (hr : Fin 256 → EReal) (xr : Fin 128 → EReal) (cr : Fin 256 → EReal) (d : EReal) (o : Fin 256) : EReal :=
  Ideal.logistic (pre Wh Wx Ws b 5 4 hr xr (state Wh Wx Wst b hr xr d) o) * Ideal.tanh (newC Wh Wx Ws Wst b hr xr cr d o)

/-! ## The two result arrays of a batch of `R` rows -/

variable {R : Nat}

/-- Row `r` of a matrix with `n` columns. -/
abbrev rowOf {n : Nat} (X : (⟨2, ![R, n]⟩ : Shape).Idx → EReal) (r : Fin R) : Fin n → EReal := fun k => X (ix2 r k)

/-- The new cell states of a batch: entry `(r, o)` is `newC` of row `r` at `o`. -/
def arrC (x : (⟨2, ![R, 128]⟩ : Shape).Idx → EReal) (dl : (⟨2, ![R, 1]⟩ : Shape).Idx → EReal)
    (h cp : (⟨2, ![R, 256]⟩ : Shape).Idx → EReal) : (⟨2, ![R, 256]⟩ : Shape).Idx → EReal :=
  fun i => newC Wh Wx Ws Wst b (rowOf h (i 0)) (rowOf x (i 0)) (rowOf cp (i 0)) (dl (ix2 (i 0) (0 : Fin 1))) (i 1)

/-- The new hidden states of a batch. -/
def arrH (x : (⟨2, ![R, 128]⟩ : Shape).Idx → EReal) (dl : (⟨2, ![R, 1]⟩ : Shape).Idx → EReal)
    (h cp : (⟨2, ![R, 256]⟩ : Shape).Idx → EReal) : (⟨2, ![R, 256]⟩ : Shape).Idx → EReal :=
  fun i => newH Wh Wx Ws Wst b (rowOf h (i 0)) (rowOf x (i 0)) (rowOf cp (i 0)) (dl (ix2 (i 0) (0 : Fin 1))) (i 1)

theorem arrC_ix2 (x : (⟨2, ![R, 128]⟩ : Shape).Idx → EReal) (dl : (⟨2, ![R, 1]⟩ : Shape).Idx → EReal)
    (h cp : (⟨2, ![R, 256]⟩ : Shape).Idx → EReal) (r : Fin R) (o : Fin 256) :
    arrC Wh Wx Ws Wst b x dl h cp (ix2 r o)
      = newC Wh Wx Ws Wst b (rowOf h r) (rowOf x r) (rowOf cp r) (dl (ix2 r (0 : Fin 1))) o := rfl

theorem arrH_ix2 (x : (⟨2, ![R, 128]⟩ : Shape).Idx → EReal) (dl : (⟨2, ![R, 1]⟩ : Shape).Idx → EReal)
    (h cp : (⟨2, ![R, 256]⟩ : Shape).Idx → EReal) (r : Fin R) (o : Fin 256) :
    arrH Wh Wx Ws Wst b x dl h cp (ix2 r o)
      = newH Wh Wx Ws Wst b (rowOf h r) (rowOf x r) (rowOf cp r) (dl (ix2 r (0 : Fin 1))) o := rfl

end Cert.Cell

end
-- ==== Proof.LibKeepdims.lean ====
/-
  The keepdims column forms of a row reduction, read at an index: a vector `[a]` cast to the column `[a, 1]`, and a
  column `[a, 1]` broadcast along the lanes to `[a, b]` (what `jnp.sum(x, axis=-1, keepdims=True)` followed by a
  broadcast against `[a, b]` lowers to in a kernel body). General in the extents and the element type.
-/
import Idealize.ShloMosaic.Lib.Pipeline.Value
import Idealize.ShloMosaic.Lib.ValueIdx

namespace Cert.LibKeepdims

open Idealize.ShloMosaic Idealize.ShloMosaic.ValueIdx

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelOps.lean ====
/-
  The kernel body's building blocks, each read at one entry `(p, q)` of the `[1024, 256]` tile, on the extended reals.

  * A product of the tile's rows with a transposed weight slab: the body casts a `[1, 256, n]` slab to `[256, n]`,
    narrows it (the identity here), transposes it to `[n, 256]` and multiplies on the right into a zero accumulator.
    Entry `(p, q)` is the inner product of the tile's row `p` with the slab's row `q`.
  * A bias row `[1, 256]` flattened, re-expanded and broadcast over the rows: entry `(p, q)` is the row's entry `q`.
  * The time-gap term: the column `[1024, 1]` broadcast along the lanes times the column `[256, 1]` transposed and
    broadcast over the rows: entry `(p, q)` is `d p · w q`.
  * A slab or a bias row loaded out of the stacked weights at gate `n` is the stack read at leading coordinate `n`.
-/
import proofs.«123899_j57784490000883_1_alg».proof.Proof.Gen.KernelIdeal.Skeleton
import proofs.«123899_j57784490000883_1_alg».proof.Proof.Cell
import proofs.«123899_j57784490000883_1_alg».proof.Proof.LibKeepdims
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.KernelSide

open Cert.KernelIdeal Cert.KernelIdeal.Gen Cert.Cell
open Idealize.ShloMosaic Idealize.ShloMosaic.TcCoe Idealize.ShloMosaic.ValueIdx

/-! ## The two matrix products -/

theorem lhsH_0 (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsH_1 (i : S1024x256.Idx) (c : dot_S1024x256_S256x256_S1024x256_1_0_0_1_n_n.contr.Idx) :
    (dot_S1024x256_S256x256_S1024x256_1_0_0_1_n_n.lhsIdx i c 1).val = (c ⟨0, by decide⟩).val :=
  dot_S1024x256_S256x256_S1024x256_1_0_0_1_n_n.lhsIdx_val_of_single rfl i c
theorem rhsH_0 (i : S1024x256.Idx) (c : dot_S1024x256_S256x256_S1024x256_1_0_0_1_n_n.contr.Idx) :
    (dot_S1024x256_S256x256_S1024x256_1_0_0_1_n_n.rhsIdx i c 0).val = (c ⟨0, by decide⟩).val :=
  dot_S1024x256_S256x256_S1024x256_1_0_0_1_n_n.rhsIdx_val_of_single rfl i c
theorem rhsH_1 (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A `[1024, 256] × [256, 256]` product into a zero accumulator, at `(p, q)`: the sum over the contracted coordinate. -/
theorem matmulH_apply (A : FVec Ideal S1024x256 .bf16) (B : FVec Ideal S256x256 .bf16) (p : Fin 1024) (q : Fin 256) :
    matmul dot_S1024x256_S256x256_S1024x256_1_0_0_1_n_n none A B (constant S1024x256 .f32 0x00000000#32) (ix2 p q)
      = ∑ k : Fin 256, A (ix2 p k) * B (ix2 k q) := by
  refine (Ideal.matmul_constant_zero_apply dot_S1024x256_S256x256_S1024x256_1_0_0_1_n_n none A B (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhsH_0 _ _
    | ⟨1, _⟩ => exact (lhsH_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhsH_0 _ _).trans hk
    | ⟨1, _⟩ => exact rhsH_1 _ _)
  rw [el, er]

theorem lhsX_0 (i : S1024x256.Idx) (c : dot_S1024x128_S128x256_S1024x256_1_0_0_1_n_n.contr.Idx) :
    (dot_S1024x128_S128x256_S1024x256_1_0_0_1_n_n.lhsIdx i c 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhsX_1 (i : S1024x256.Idx) (c : dot_S1024x128_S128x256_S1024x256_1_0_0_1_n_n.contr.Idx) :
    (dot_S1024x128_S128x256_S1024x256_1_0_0_1_n_n.lhsIdx i c 1).val = (c ⟨0, by decide⟩).val :=
  dot_S1024x128_S128x256_S1024x256_1_0_0_1_n_n.lhsIdx_val_of_single rfl i c
theorem rhsX_0 (i : S1024x256.Idx) (c : dot_S1024x128_S128x256_S1024x256_1_0_0_1_n_n.contr.Idx) :
    (dot_S1024x128_S128x256_S1024x256_1_0_0_1_n_n.rhsIdx i c 0).val = (c ⟨0, by decide⟩).val :=
  dot_S1024x128_S128x256_S1024x256_1_0_0_1_n_n.rhsIdx_val_of_single rfl i c
theorem rhsX_1 (i : S1024x256.Idx) (c : dot_S1024x128_S128x256_S1024x256_1_0_0_1_n_n.contr.Idx) :
    (dot_S1024x128_S128x256_S1024x256_1_0_0_1_n_n.rhsIdx i c 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A `[1024, 128] × [128, 256]` product into a zero accumulator, at `(p, q)`. -/
theorem matmulX_apply (A : FVec Ideal S1024x128 .bf16) (B : FVec Ideal S128x256 .bf16) (p : Fin 1024) (q : Fin 256) :
    matmul dot_S1024x128_S128x256_S1024x256_1_0_0_1_n_n none A B (constant S1024x256 .f32 0x00000000#32) (ix2 p q)
      = ∑ k : Fin 128, A (ix2 p k) * B (ix2 k q) := by
  refine (Ideal.matmul_constant_zero_apply dot_S1024x128_S128x256_S1024x256_1_0_0_1_n_n none A B (ix2 p q)).trans ?_
  rw [← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun a => Fin.ext (by
    match a with
    | ⟨0, _⟩ => exact lhsX_0 _ _
    | ⟨1, _⟩ => exact (lhsX_1 _ _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun a => Fin.ext (by
    match a with
    | ⟨0, _⟩ => exact (rhsX_0 _ _).trans hk
    | ⟨1, _⟩ => exact rhsX_1 _ _)
  rw [el, er]

/-! ## A weight slab as the right factor -/

/-- The slab `[1, 256, 256]` cast, narrowed and transposed: entry `(k, q)` is the slab's `(0, q, k)`. -/
theorem slabH_apply (W : Vec Ideal S1x256x256 .f32) (k q : Fin 256) :
    (transpose S256x256 [1, 0] (truncf (F := Ideal) .bf16 (shapeCast S256x256 W shapeCasts_S1x256x256_S256x256 : FVec Ideal S256x256 .f32) bitsLt_bf16_f32)
        transposes_S256x256_p1_0_S256x256 : FVec Ideal S256x256 .bf16) (ix2 k q) = (W (ix3 (0 : Fin 1) q k) : EReal) :=
  (transpose_ix2_apply _ transposes_S256x256_p1_0_S256x256 k q).trans
    (shapeCast_1ab_ab_apply W shapeCasts_S1x256x256_S256x256 q k)

/-- The slab `[1, 256, 128]` cast, narrowed and transposed: entry `(k, q)` is the slab's `(0, q, k)`. -/
theorem slabX_apply (W : Vec Ideal S1x256x128 .f32) (k : Fin 128) (q : Fin 256) :
    (transpose S128x256 [1, 0] (truncf (F := Ideal) .bf16 (shapeCast S256x128 W shapeCasts_S1x256x128_S256x128 : FVec Ideal S256x128 .f32) bitsLt_bf16_f32)
        transposes_S256x128_p1_0_S128x256 : FVec Ideal S128x256 .bf16) (ix2 k q) = (W (ix3 (0 : Fin 1) q k) : EReal) :=
  (transpose_ix2_apply _ transposes_S256x128_p1_0_S128x256 k q).trans
    (shapeCast_1ab_ab_apply W shapeCasts_S1x256x128_S256x128 q k)

/-- Rows of 256 entries against a slab: the inner product of row `p` with the slab's row `q`. -/
theorem linH_apply (A : FVec Ideal S1024x256 .bf16) (W : Vec Ideal S1x256x256 .f32) (p : Fin 1024) (q : Fin 256) :
    matmul dot_S1024x256_S256x256_S1024x256_1_0_0_1_n_n none A
        (transpose S256x256 [1, 0] (truncf (F := Ideal) .bf16 (shapeCast S256x256 W shapeCasts_S1x256x256_S256x256 : FVec Ideal S256x256 .f32) bitsLt_bf16_f32)
          transposes_S256x256_p1_0_S256x256 : FVec Ideal S256x256 .bf16)
        (constant S1024x256 .f32 0x00000000#32) (ix2 p q)
      = inner (fun k : Fin 256 => (A (ix2 p k) : EReal)) (fun k => (W (ix3 (0 : Fin 1) q k) : EReal)) :=
  (matmulH_apply A _ p q).trans (Finset.sum_congr rfl fun k _ => congrArg (A (ix2 p k) * ·) (slabH_apply W k q))

/-- Rows of 128 entries against a slab: the inner product of row `p` with the slab's row `q`. -/
theorem linX_apply (A : FVec Ideal S1024x128 .bf16) (W : Vec Ideal S1x256x128 .f32) (p : Fin 1024) (q : Fin 256) :
    matmul dot_S1024x128_S128x256_S1024x256_1_0_0_1_n_n none A
        (transpose S128x256 [1, 0] (truncf (F := Ideal) .bf16 (shapeCast S256x128 W shapeCasts_S1x256x128_S256x128 : FVec Ideal S256x128 .f32) bitsLt_bf16_f32)
          transposes_S256x128_p1_0_S128x256 : FVec Ideal S128x256 .bf16)
        (constant S1024x256 .f32 0x00000000#32) (ix2 p q)
      = inner (fun k : Fin 128 => (A (ix2 p k) : EReal)) (fun k => (W (ix3 (0 : Fin 1) q k) : EReal)) :=
  (matmulX_apply A _ p q).trans (Finset.sum_congr rfl fun k _ => congrArg (A (ix2 p k) * ·) (slabX_apply W k q))

/-! ## The bias row and the time-gap term -/

/-- A bias row flattened, re-expanded and broadcast over the rows: entry `(p, q)` is the row's entry `q`. -/
theorem bias_apply (B : Vec Ideal S1x256 .f32) (p : Fin 1024) (q : Fin 256) :
    (broadcastTo S1024x256 (shapeCast S1x256 (shapeCast S256 B shapeCasts_S1x256_S256 : FVec Ideal S256 .f32) shapeCasts_S256_S1x256 : FVec Ideal S1x256 .f32)
        broadcasts_S1x256_S1024x256 : FVec Ideal S1024x256 .f32) (ix2 p q) = (B (ix2 (0 : Fin 1) q) : EReal) :=
  (broadcastTo_1b_ab_apply _ broadcasts_S1x256_S1024x256 p q).trans
    ((shapeCast_a_1a_apply _ shapeCasts_S256_S1x256 (0 : Fin 1) q).trans (shapeCast_1a_a_apply B shapeCasts_S1x256_S256 q))

/-- The time-gap column along the lanes times the weight column transposed and spread over the rows. -/
theorem gap_apply (d : Vec Ideal S1024x1 .f32) (w : Vec Ideal S256x1 .f32) (p : Fin 1024) (q : Fin 256) :
    mulf (F := Ideal) (φ := .f32) (broadcastTo S1024x256 d broadcasts_S1024x1_S1024x256 : FVec Ideal S1024x256 .f32)
        (broadcastTo S1024x256 (transpose S1x256 [1, 0] w transposes_S256x1_p1_0_S1x256 : FVec Ideal S1x256 .f32) broadcasts_S1x256_S1024x256 : FVec Ideal S1024x256 .f32) (ix2 p q)
      = (d (ix2 p (0 : Fin 1)) : EReal) * (w (ix2 q (0 : Fin 1)) : EReal) := by
  show (broadcastTo S1024x256 d broadcasts_S1024x1_S1024x256 (ix2 p q) : EReal)
      * (broadcastTo S1024x256 (transpose S1x256 [1, 0] w transposes_S256x1_p1_0_S1x256) broadcasts_S1x256_S1024x256 (ix2 p q) : EReal) = _
  rw [Cert.LibKeepdims.broadcastTo_a1_ab_apply d broadcasts_S1024x1_S1024x256 p q,
    broadcastTo_1b_ab_apply _ broadcasts_S1x256_S1024x256 p q,
    transpose_ix2_apply w transposes_S256x1_p1_0_S1x256 (0 : Fin 1) q]

/-! ## Loads out of the stacked weights -/

/-- The slab of gate `g` out of the `[6, 256, 256]` stack. -/
theorem ldH_apply (W : Vec Ideal S6x256x256 .f32) (n : Nat) (g : Fin 6) (hg : g.val = n)
    (inb : ∀ a, (![n, 0, 0] : Fin 3 → Nat) a + S1x256x256.size a ≤ S6x256x256.size a) (o k : Fin 256) :
    View.ld W (Rect.unit (s := S6x256x256) ![n, 0, 0] S1x256x256.size inb) (ix3 (0 : Fin 1) o k) = W (ix3 g o k) := by
  show W _ = W _
  congr 1; funext a; apply Fin.ext
  match a with
  | ⟨0, _⟩ => show n + 1 * 0 = g.val; omega
  | ⟨1, _⟩ => show 0 + 1 * o.val = o.val; omega
  | ⟨2, _⟩ => show 0 + 1 * k.val = k.val; omega

/-- The slab of gate `g` out of the `[6, 256, 128]` stack. -/
theorem ldX_apply (W : Vec Ideal S6x256x128 .f32) (n : Nat) (g : Fin 6) (hg : g.val = n)
    (inb : ∀ a, (![n, 0, 0] : Fin 3 → Nat) a + S1x256x128.size a ≤ S6x256x128.size a) (o : Fin 256) (k : Fin 128) :
    View.ld W (Rect.unit (s := S6x256x128) ![n, 0, 0] S1x256x128.size inb) (ix3 (0 : Fin 1) o k) = W (ix3 g o k) := by
  show W _ = W _
  congr 1; funext a; apply Fin.ext
  match a with
  | ⟨0, _⟩ => show n + 1 * 0 = g.val; omega
  | ⟨1, _⟩ => show 0 + 1 * o.val = o.val; omega
  | ⟨2, _⟩ => show 0 + 1 * k.val = k.val; omega

/-- The slab `j` out of the `[5, 256, 256]` stack. -/
theorem ldS_apply (W : Vec Ideal S5x256x256 .f32) (n : Nat) (j : Fin 5) (hj : j.val = n)
    (inb : ∀ a, (![n, 0, 0] : Fin 3 → Nat) a + S1x256x256.size a ≤ S5x256x256.size a) (o k : Fin 256) :
    View.ld W (Rect.unit (s := S5x256x256) ![n, 0, 0] S1x256x256.size inb) (ix3 (0 : Fin 1) o k) = W (ix3 j o k) := by
  show W _ = W _
  congr 1; funext a; apply Fin.ext
  match a with
  | ⟨0, _⟩ => show n + 1 * 0 = j.val; omega
  | ⟨1, _⟩ => show 0 + 1 * o.val = o.val; omega
  | ⟨2, _⟩ => show 0 + 1 * k.val = k.val; omega

/-- The bias row of gate `g` out of the `[6, 256]` stack. -/
theorem ldB_apply (B : Vec Ideal S6x256 .f32) (n : Nat) (g : Fin 6) (hg : g.val = n)
    (inb : ∀ a, (![n, 0] : Fin 2 → Nat) a + S1x256.size a ≤ S6x256.size a) (o : Fin 256) :
    View.ld B (Rect.unit (s := S6x256) ![n, 0] S1x256.size inb) (ix2 (0 : Fin 1) o) = B (ix2 g o) := by
  show B _ = B _
  congr 1; funext a; apply Fin.ext
  match a with
  | ⟨0, _⟩ => show n + 1 * 0 = g.val; omega
  | ⟨1, _⟩ => show 0 + 1 * o.val = o.val; omega

/-- A square `[256, 256]` matrix narrowed and transposed: entry `(k, q)` is the matrix's `(q, k)`. -/
theorem sqT_apply (M : FVec Ideal S256x256 .f32) (k q : Fin 256) :
    (transpose S256x256 [1, 0] (truncf (F := Ideal) .bf16 M bitsLt_bf16_f32) transposes_S256x256_p1_0_S256x256 : FVec Ideal S256x256 .bf16) (ix2 k q)
      = (M (ix2 q k) : EReal) :=
  transpose_ix2_apply _ transposes_S256x256_p1_0_S256x256 k q

/-- Rows of 256 entries against a square matrix narrowed and transposed: the inner product of row `p` with the matrix's row `q`. -/
theorem linM_apply (A : FVec Ideal S1024x256 .bf16) (M : FVec Ideal S256x256 .f32) (p : Fin 1024) (q : Fin 256) :
    matmul dot_S1024x256_S256x256_S1024x256_1_0_0_1_n_n none A
        (transpose S256x256 [1, 0] (truncf (F := Ideal) .bf16 M bitsLt_bf16_f32) transposes_S256x256_p1_0_S256x256 : FVec Ideal S256x256 .bf16)
        (constant S1024x256 .f32 0x00000000#32) (ix2 p q)
      = inner (fun k : Fin 256 => (A (ix2 p k) : EReal)) (fun k => (M (ix2 q k) : EReal)) :=
  (matmulH_apply A _ p q).trans (Finset.sum_congr rfl fun k _ => congrArg (A (ix2 p k) * ·) (sqT_apply M k q))

/-! ## Sums of equal terms -/

theorem add2 {a a' b b' : EReal} (ha : a = a') (hb : b = b') : a + b = a' + b' := by rw [ha, hb]
theorem add3 {a a' b b' c c' : EReal} (ha : a = a') (hb : b = b') (hc : c = c') : a + b + c = a' + b' + c' := by rw [ha, hb, hc]
theorem add4 {a a' b b' c c' d d' : EReal} (ha : a = a') (hb : b = b') (hc : c = c') (hd : d = d') :
    a + b + c + d = a' + b' + c' + d' := by rw [ha, hb, hc, hd]
theorem mul2 {a a' b b' : EReal} (ha : a = a') (hb : b = b') : a * b = a' * b' := by rw [ha, hb]

end Cert.KernelSide

end
-- ==== Proof.KernelPay.lean ====
/-
  The body's payloads read at one entry `(p, q)` of the tile, and from them the two tiles the body stores: the tile of
  new cell states and the tile of new hidden states are the cell of `Cell.lean` applied to the tile's 1024 rows.

  The payloads take the weight SLABS the body loads (a `[1, 256, n]` slab per gate, a `[1, 256]` bias row per gate);
  `stateT` and `preT` are the state and a gate's pre-activation written over such slabs, and `state_slabs` / `pre_slabs`
  say that over the slabs loaded at a gate's offset they are `Cell.state` / `Cell.pre` over the stacked weights.
-/
import proofs.«123899_j57784490000883_1_alg».proof.Proof.KernelOps
import proofs.«123899_j57784490000883_1_alg».proof.Proof.Gen.KernelIdeal.Frame

noncomputable section

namespace Cert.KernelSide

open Cert.KernelIdeal Cert.KernelIdeal.Gen Cert.Cell
open Idealize.ShloMosaic Idealize.ShloMosaic.TcCoe Idealize.ShloMosaic.ValueIdx

/-- The state of a row over loaded slabs. -/
def stateT (hr : Fin 256 → EReal) (xr : Fin 128 → EReal) (d : EReal) (wh : Vec Ideal S1x256x256 .f32) (wx : Vec Ideal S1x256x128 .f32)
    (wst : Vec Ideal S256x1 .f32) (b0 : Vec Ideal S1x256 .f32) (q : Fin 256) : EReal :=
  Ideal.tanh (inner hr (fun k => (wh (ix3 (0 : Fin 1) q k) : EReal)) + inner xr (fun k => (wx (ix3 (0 : Fin 1) q k) : EReal))
    + d * (wst (ix2 q (0 : Fin 1)) : EReal) + (b0 (ix2 (0 : Fin 1) q) : EReal))

/-- A gate's pre-activation of a row over loaded slabs. -/
def preT (hr : Fin 256 → EReal) (xr : Fin 128 → EReal) (sr : Fin 256 → EReal) (wh : Vec Ideal S1x256x256 .f32) (wx : Vec Ideal S1x256x128 .f32)
    (ws : Vec Ideal S1x256x256 .f32) (bg : Vec Ideal S1x256 .f32) (q : Fin 256) : EReal :=
  inner hr (fun k => (wh (ix3 (0 : Fin 1) q k) : EReal)) + inner xr (fun k => (wx (ix3 (0 : Fin 1) q k) : EReal))
    + inner sr (fun k => (ws (ix3 (0 : Fin 1) q k) : EReal)) + (bg (ix2 (0 : Fin 1) q) : EReal)

/-! ## The payloads at an entry -/

theorem pay3_apply (v0 : Vec Ideal S1024x128 .f32) (i : S1024x128.Idx) : (k0_pay3 (F := Ideal) v0 i : EReal) = v0 i := rfl
theorem pay4_apply (v2 : Vec Ideal S1024x256 .f32) (i : S1024x256.Idx) : (k0_pay4 (F := Ideal) v2 i : EReal) = v2 i := rfl

theorem pay5_apply (v0 : Vec Ideal S1024x128 .f32) (v2 : Vec Ideal S1024x256 .f32) (v4 : Vec Ideal S1024x1 .f32) (v5 : Vec Ideal S256x1 .f32)
    (v7 : Vec Ideal S1x256x256 .f32) (v12 : Vec Ideal S1x256x128 .f32) (v22 : Vec Ideal S1x256 .f32) (p : Fin 1024) (q : Fin 256) :
    (k0_pay5 (F := Ideal) v0 v2 v4 v5 v7 v12 v22 (ix2 p q) : EReal)
      = stateT (fun k => v2 (ix2 p k)) (fun k => v0 (ix2 p k)) (v4 (ix2 p (0 : Fin 1))) v7 v12 v5 v22 q :=
  congrArg Ideal.tanh (add4 (linH_apply (k0_pay4 v2) v7 p q) (linX_apply (k0_pay3 v0) v12 p q) (gap_apply v4 v5 p q) (bias_apply v22 p q))

theorem pay6_apply (v0 : Vec Ideal S1024x128 .f32) (v2 : Vec Ideal S1024x256 .f32) (v4 : Vec Ideal S1024x1 .f32) (v5 : Vec Ideal S256x1 .f32)
    (v7 : Vec Ideal S1x256x256 .f32) (v12 : Vec Ideal S1x256x128 .f32) (v22 : Vec Ideal S1x256 .f32) (p : Fin 1024) (q : Fin 256) :
    (k0_pay6 (F := Ideal) v0 v2 v4 v5 v7 v12 v22 (ix2 p q) : EReal)
      = stateT (fun k => v2 (ix2 p k)) (fun k => v0 (ix2 p k)) (v4 (ix2 p (0 : Fin 1))) v7 v12 v5 v22 q :=
  pay5_apply v0 v2 v4 v5 v7 v12 v22 p q

theorem pay7_apply (v2 : Vec Ideal S1024x256 .f32) (v29 : Vec Ideal S1x256x256 .f32) (p : Fin 1024) (q : Fin 256) :
    (k0_pay7 (F := Ideal) v2 v29 (ix2 p q) : EReal)
      = inner (fun k : Fin 256 => (v2 (ix2 p k) : EReal)) (fun k => (v29 (ix3 (0 : Fin 1) q k) : EReal)) :=
  linH_apply (k0_pay4 v2) v29 p q

theorem pay8_apply (v1 : FVec Ideal S1024x128 .bf16) (v28 : FVec Ideal S1024x256 .bf16) (v33 : FVec Ideal S1024x256 .f32)
    (v34 : Vec Ideal S1x256x128 .f32) (v40 : Vec Ideal S1x256x256 .f32) (v46 : Vec Ideal S1x256 .f32) (p : Fin 1024) (q : Fin 256) :
    (k0_pay8 (F := Ideal) v1 v28 v33 v34 v40 v46 (ix2 p q) : EReal)
      = (v33 (ix2 p q) : EReal) + inner (fun k : Fin 128 => (v1 (ix2 p k) : EReal)) (fun k => (v34 (ix3 (0 : Fin 1) q k) : EReal))
        + inner (fun k : Fin 256 => (v28 (ix2 p k) : EReal)) (fun k => (v40 (ix3 (0 : Fin 1) q k) : EReal)) + (v46 (ix2 (0 : Fin 1) q) : EReal) :=
  add4 rfl (linX_apply v1 v34 p q) (linH_apply v28 v40 p q) (bias_apply v46 p q)

theorem pay9_apply (v1 : FVec Ideal S1024x128 .bf16) (v3 : FVec Ideal S1024x256 .bf16) (v28 : FVec Ideal S1024x256 .bf16)
    (v51 : Vec Ideal S1x256x256 .f32) (v56 : Vec Ideal S1x256x128 .f32) (v62 : Vec Ideal S1x256x256 .f32) (v68 : Vec Ideal S1x256 .f32) (p : Fin 1024) (q : Fin 256) :
    (k0_pay9 (F := Ideal) v1 v3 v28 v51 v56 v62 v68 (ix2 p q) : EReal)
      = preT (fun k => v3 (ix2 p k)) (fun k => v1 (ix2 p k)) (fun k => v28 (ix2 p k)) v51 v56 v62 v68 q :=
  add4 (linH_apply v3 v51 p q) (linX_apply v1 v56 p q) (linH_apply v28 v62 p q) (bias_apply v68 p q)

theorem pay10_apply (v1 : FVec Ideal S1024x128 .bf16) (v3 : FVec Ideal S1024x256 .bf16) (v28 : FVec Ideal S1024x256 .bf16)
    (v73 : Vec Ideal S1x256x256 .f32) (v78 : Vec Ideal S1x256x128 .f32) (v84 : Vec Ideal S1x256x256 .f32) (v90 : Vec Ideal S1x256 .f32) (p : Fin 1024) (q : Fin 256) :
    (k0_pay10 (F := Ideal) v1 v3 v28 v73 v78 v84 v90 (ix2 p q) : EReal)
      = preT (fun k => v3 (ix2 p k)) (fun k => v1 (ix2 p k)) (fun k => v28 (ix2 p k)) v73 v78 v84 v90 q :=
  add4 (linH_apply v3 v73 p q) (linX_apply v1 v78 p q) (linH_apply v28 v84 p q) (bias_apply v90 p q)

theorem pay11_apply (v1 : FVec Ideal S1024x128 .bf16) (v3 : FVec Ideal S1024x256 .bf16)
    (v95 : Vec Ideal S1x256x256 .f32) (v100 : Vec Ideal S1x256x128 .f32) (p : Fin 1024) (q : Fin 256) :
    (k0_pay11 (F := Ideal) v1 v3 v95 v100 (ix2 p q) : EReal)
      = inner (fun k : Fin 256 => (v3 (ix2 p k) : EReal)) (fun k => (v95 (ix3 (0 : Fin 1) q k) : EReal))
        + inner (fun k : Fin 128 => (v1 (ix2 p k) : EReal)) (fun k => (v100 (ix3 (0 : Fin 1) q k) : EReal)) :=
  add2 (linH_apply v3 v95 p q) (linX_apply v1 v100 p q)

theorem pay12_apply (v106 : Vec Ideal S1x256x256 .f32) (q k : Fin 256) :
    (k0_pay12 (F := Ideal) v106 (ix2 q k) : EReal) = v106 (ix3 (0 : Fin 1) q k) :=
  shapeCast_1ab_ab_apply v106 shapeCasts_S1x256x256_S256x256 q k

theorem pay13_apply (v1 : FVec Ideal S1024x128 .bf16) (v3 : FVec Ideal S1024x256 .bf16) (v28 : FVec Ideal S1024x256 .bf16)
    (v117 : Vec Ideal S1x256x256 .f32) (v122 : Vec Ideal S1x256x128 .f32) (v128 : Vec Ideal S1x256x256 .f32) (v134 : Vec Ideal S1x256 .f32) (p : Fin 1024) (q : Fin 256) :
    (k0_pay13 (F := Ideal) v1 v3 v28 v117 v122 v128 v134 (ix2 p q) : EReal)
      = Ideal.logistic (preT (fun k => v3 (ix2 p k)) (fun k => v1 (ix2 p k)) (fun k => v28 (ix2 p k)) v117 v122 v128 v134 q) :=
  congrArg Ideal.logistic (add4 (linH_apply v3 v117 p q) (linX_apply v1 v122 p q) (linH_apply v28 v128 p q) (bias_apply v134 p q))

theorem pay14_apply (v28 : FVec Ideal S1024x256 .bf16) (v50 v72 v105 : FVec Ideal S1024x256 .f32) (v107 : FVec Ideal S256x256 .f32)
    (v112 : Vec Ideal S1x256 .f32) (v144 : Vec Ideal S1024x256 .f32) (p : Fin 1024) (q : Fin 256) :
    (k0_pay14 (F := Ideal) v28 v50 v72 v105 v107 v112 v144 (ix2 p q) : EReal)
      = Ideal.logistic (v50 (ix2 p q)) * (v144 (ix2 p q) : EReal)
        + Ideal.logistic (v72 (ix2 p q)) * Ideal.tanh ((v105 (ix2 p q) : EReal)
            + inner (fun k : Fin 256 => (v28 (ix2 p k) : EReal)) (fun k => (v107 (ix2 q k) : EReal)) + (v112 (ix2 (0 : Fin 1) q) : EReal)) :=
  add2 rfl (congrArg (Ideal.logistic (v72 (ix2 p q)) * ·) (congrArg Ideal.tanh (add3 rfl (linM_apply v28 v107 p q) (bias_apply v112 p q))))

theorem pay15_apply (v27 v94 : FVec Ideal S1024x256 .f32) (i : S1024x256.Idx) :
    (k0_pay15 (F := Ideal) v27 v94 i : EReal) = Ideal.logistic (v94 i) * (v27 i : EReal) := rfl

theorem pay1_apply (v147 v148 : FVec Ideal S1024x256 .f32) (i : S1024x256.Idx) :
    (k0_pay1 (F := Ideal) v147 v148 i : EReal) = (v147 i : EReal) + (v148 i : EReal) := rfl

theorem pay2_apply (v143 v147 v148 : FVec Ideal S1024x256 .f32) (i : S1024x256.Idx) :
    (k0_pay2 (F := Ideal) v143 v147 v148 i : EReal) = (v143 i : EReal) * Ideal.tanh ((v147 i : EReal) + (v148 i : EReal)) := rfl

/-! ## From the loaded slabs to the stacked weights -/

theorem inner_congr {n : Nat} {u u' w w' : Fin n → EReal} (hu : ∀ k, u k = u' k) (hw : ∀ k, w k = w' k) :
    inner u w = inner u' w' := congrArg₂ inner (funext hu) (funext hw)

/-- Over the slabs the body loads at gate 0, the state is the cell's state over the stacked weights. -/
theorem state_of_slabs (X4 : Vec Ideal S6x256x256 .f32) (X5 : Vec Ideal S6x256x128 .f32) (X7 : Vec Ideal S256x1 .f32) (X8 : Vec Ideal S6x256 .f32)
    (hr : Fin 256 → EReal) (xr : Fin 128 → EReal) (d : EReal) (q : Fin 256) :
    stateT hr xr d (View.ld X4 r0_4) (View.ld X5 r0_5) X7 (View.ld X8 r0_6) q = state X4 X5 X7 X8 hr xr d q :=
  congrArg Ideal.tanh (add4
    (inner_congr (fun _ => rfl) fun k => ldH_apply X4 0 (0 : Fin 6) rfl _ q k)
    (inner_congr (fun _ => rfl) fun k => ldX_apply X5 0 (0 : Fin 6) rfl _ q k)
    rfl
    (ldB_apply X8 0 (0 : Fin 6) rfl _ q))

/-- Over the slabs the body loads at gate `g` (state slab `j`), a pre-activation over the row's state is the cell's. -/
theorem pre_of_slabs (X4 : Vec Ideal S6x256x256 .f32) (X5 : Vec Ideal S6x256x128 .f32) (X6 : Vec Ideal S5x256x256 .f32) (X7 : Vec Ideal S256x1 .f32) (X8 : Vec Ideal S6x256 .f32)
    (n nj : Nat) (g : Fin 6) (j : Fin 5) (hg : g.val = n) (hj : j.val = nj)
    (inbH : ∀ a, (![n, 0, 0] : Fin 3 → Nat) a + S1x256x256.size a ≤ S6x256x256.size a)
    (inbX : ∀ a, (![n, 0, 0] : Fin 3 → Nat) a + S1x256x128.size a ≤ S6x256x128.size a)
    (inbS : ∀ a, (![nj, 0, 0] : Fin 3 → Nat) a + S1x256x256.size a ≤ S5x256x256.size a)
    (inbB : ∀ a, (![n, 0] : Fin 2 → Nat) a + S1x256.size a ≤ S6x256.size a)
    (hr : Fin 256 → EReal) (xr : Fin 128 → EReal) (d : EReal) (q : Fin 256) :
    preT hr xr (fun k => stateT hr xr d (View.ld X4 r0_4) (View.ld X5 r0_5) X7 (View.ld X8 r0_6) k)
        (View.ld X4 (Rect.unit (s := S6x256x256) ![n, 0, 0] S1x256x256.size inbH))
        (View.ld X5 (Rect.unit (s := S6x256x128) ![n, 0, 0] S1x256x128.size inbX))
        (View.ld X6 (Rect.unit (s := S5x256x256) ![nj, 0, 0] S1x256x256.size inbS))
        (View.ld X8 (Rect.unit (s := S6x256) ![n, 0] S1x256.size inbB)) q
      = pre X4 X5 X6 X8 g j hr xr (state X4 X5 X7 X8 hr xr d) q :=
  add4
    (inner_congr (fun _ => rfl) fun k => ldH_apply X4 n g hg inbH q k)
    (inner_congr (fun _ => rfl) fun k => ldX_apply X5 n g hg inbX q k)
    (inner_congr (fun k => state_of_slabs X4 X5 X7 X8 hr xr d k) fun k => ldS_apply X6 nj j hj inbS q k)
    (ldB_apply X8 n g hg inbB q)

/-! ## The tiles -/

theorem hz : (![0, 0] : Fin 2 → Nat) = fun _ => 0 := funext fun a => by fin_cases a <;> rfl

/-- The tile of new cell states is the cell applied to the tile's rows. -/
theorem tileC (X0 : Vec Ideal S1024x128 .f32) (X1 : Vec Ideal S1024x1 .f32) (X2 X3 : Vec Ideal S1024x256 .f32) (X4 : Vec Ideal S6x256x256 .f32)
    (X5 : Vec Ideal S6x256x128 .f32) (X6 : Vec Ideal S5x256x256 .f32) (X7 : Vec Ideal S256x1 .f32) (X8 : Vec Ideal S6x256 .f32) :
    out0_10 (F := Ideal) X0 X1 X2 X3 X4 X5 X6 X7 X8 = arrC (R := 1024) X4 X5 X6 X7 X8 X0 X1 X2 X3 := by
  unfold out0_10
  rw [View.canon_unit_zero hz]
  simp only [View.ld_unit_zero (S := S1024x128) hz, View.ld_unit_zero (S := S1024x256) hz, View.ld_unit_zero (S := S1024x1) hz,
    View.ld_unit_zero (S := S256x1) hz]
  funext i
  obtain ⟨p, q, rfl⟩ : ∃ (p : Fin 1024) (q : Fin 256), i = ix2 p q := ⟨i 0, i 1, eq_ix2 i⟩
  simp only [pay1_apply, pay14_apply, pay15_apply, pay5_apply, pay6_apply, pay8_apply, pay7_apply, pay9_apply, pay10_apply,
    pay11_apply, pay12_apply, pay3_apply, pay4_apply]
  rw [arrC_ix2]
  unfold newC
  refine add3 (mul2 (congrArg Ideal.logistic ?_) rfl) (mul2 (congrArg Ideal.logistic ?_) (congrArg Ideal.tanh ?_))
    (mul2 (congrArg Ideal.logistic ?_) ?_)
  · exact pre_of_slabs X4 X5 X6 X7 X8 1 0 1 0 rfl rfl _ _ _ _ _ _ _ q
  · exact pre_of_slabs X4 X5 X6 X7 X8 2 1 2 1 rfl rfl _ _ _ _ _ _ _ q
  · exact pre_of_slabs X4 X5 X6 X7 X8 4 3 4 3 rfl rfl _ _ _ _ _ _ _ q
  · exact pre_of_slabs X4 X5 X6 X7 X8 3 2 3 2 rfl rfl _ _ _ _ _ _ _ q
  · exact state_of_slabs X4 X5 X7 X8 _ _ _ q

/-- The tile of new hidden states: the output gate times `tanh` of the tile of new cell states. -/
theorem tileH (X0 : Vec Ideal S1024x128 .f32) (X1 : Vec Ideal S1024x1 .f32) (X2 X3 : Vec Ideal S1024x256 .f32) (X4 : Vec Ideal S6x256x256 .f32)
    (X5 : Vec Ideal S6x256x128 .f32) (X6 : Vec Ideal S5x256x256 .f32) (X7 : Vec Ideal S256x1 .f32) (X8 : Vec Ideal S6x256 .f32) :
    out0_9 (F := Ideal) X0 X1 X2 X3 X4 X5 X6 X7 X8 = arrH (R := 1024) X4 X5 X6 X7 X8 X0 X1 X2 X3 := by
  funext i
  obtain ⟨p, q, rfl⟩ : ∃ (p : Fin 1024) (q : Fin 256), i = ix2 p q := ⟨i 0, i 1, eq_ix2 i⟩
  have hc := congrFun (tileC X0 X1 X2 X3 X4 X5 X6 X7 X8) (ix2 p q)
  rw [arrC_ix2] at hc
  rw [arrH_ix2]
  unfold newH
  rw [← hc]
  unfold out0_9 out0_10
  rw [View.canon_unit_zero hz, View.canon_unit_zero hz]
  simp only [View.ld_unit_zero (S := S1024x128) hz, View.ld_unit_zero (S := S1024x256) hz, View.ld_unit_zero (S := S1024x1) hz,
    View.ld_unit_zero (S := S256x1) hz]
  rw [pay2_apply, pay1_apply]
  refine mul2 ?_ rfl
  rw [pay13_apply]
  simp only [pay6_apply, pay3_apply, pay4_apply]
  exact congrArg Ideal.logistic (pre_of_slabs X4 X5 X6 X7 X8 5 4 5 4 rfl rfl _ _ _ _ _ _ _ q)

end Cert.KernelSide

end
-- ==== Proof.CellRows.lean ====
/-
  The cell reads a batch one row at a time: entry `(r, o)` of either result depends on the batch only through row `r` of
  x_t, h_prev, c_prev and entry `r` of delta_t. So two batches (of any two heights) that agree on a row of each give
  the same results on that row. This is what lets a tile of rows be computed by itself.
-/
import proofs.«123899_j57784490000883_1_alg».proof.Proof.Cell

noncomputable section

namespace Cert.Cell

open Idealize.ShloMosaic Idealize.ShloMosaic.ValueIdx

variable (Wh : WH) (Wx : WX) (Ws : WS) (Wst : WT) (b : BB) {R R' : Nat}

theorem arrC_rows (x : (⟨2, ![R, 128]⟩ : Shape).Idx → EReal) (dl : (⟨2, ![R, 1]⟩ : Shape).Idx → EReal)
    (h cp : (⟨2, ![R, 256]⟩ : Shape).Idx → EReal)
    (x' : (⟨2, ![R', 128]⟩ : Shape).Idx → EReal) (dl' : (⟨2, ![R', 1]⟩ : Shape).Idx → EReal)
    (h' cp' : (⟨2, ![R', 256]⟩ : Shape).Idx → EReal) (r : Fin R) (r' : Fin R')
    (hx : ∀ k : Fin 128, x (ix2 r k) = x' (ix2 r' k)) (hd : dl (ix2 r (0 : Fin 1)) = dl' (ix2 r' (0 : Fin 1)))
    (hh : ∀ k : Fin 256, h (ix2 r k) = h' (ix2 r' k)) (hc : ∀ k : Fin 256, cp (ix2 r k) = cp' (ix2 r' k)) (o : Fin 256) :
    arrC Wh Wx Ws Wst b x dl h cp (ix2 r o) = arrC Wh Wx Ws Wst b x' dl' h' cp' (ix2 r' o) := by
  have e1 : rowOf h r = rowOf h' r' := funext hh
  have e2 : rowOf x r = rowOf x' r' := funext hx
  have e3 : rowOf cp r = rowOf cp' r' := funext hc
  rw [arrC_ix2, arrC_ix2, e1, e2, e3, hd]

theorem arrH_rows (x : (⟨2, ![R, 128]⟩ : Shape).Idx → EReal) (dl : (⟨2, ![R, 1]⟩ : Shape).Idx → EReal)
    (h cp : (⟨2, ![R, 256]⟩ : Shape).Idx → EReal)
    (x' : (⟨2, ![R', 128]⟩ : Shape).Idx → EReal) (dl' : (⟨2, ![R', 1]⟩ : Shape).Idx → EReal)
    (h' cp' : (⟨2, ![R', 256]⟩ : Shape).Idx → EReal) (r : Fin R) (r' : Fin R')
    (hx : ∀ k : Fin 128, x (ix2 r k) = x' (ix2 r' k)) (hd : dl (ix2 r (0 : Fin 1)) = dl' (ix2 r' (0 : Fin 1)))
    (hh : ∀ k : Fin 256, h (ix2 r k) = h' (ix2 r' k)) (hc : ∀ k : Fin 256, cp (ix2 r k) = cp' (ix2 r' k)) (o : Fin 256) :
    arrH Wh Wx Ws Wst b x dl h cp (ix2 r o) = arrH Wh Wx Ws Wst b x' dl' h' cp' (ix2 r' o) := by
  have e1 : rowOf h r = rowOf h' r' := funext hh
  have e2 : rowOf x r = rowOf x' r' := funext hx
  have e3 : rowOf cp r = rowOf cp' r' := funext hc
  rw [arrH_ix2, arrH_ix2, e1, e2, e3, hd]

end Cert.Cell

end
-- ==== Proof.KernelArray.lean ====
/-
  From tiles to arrays. The grid has 64 points; point `t` stages rows `1024 t … 1024 t + 1023` of x_t, delta_t, h_prev
  and c_prev (every column) and the whole of each weight array, and writes back rows `1024 t … 1024 t + 1023` of the two
  results. What it writes back is the cell applied to the tile's rows (`tileC`, `tileH`), and a tile's row `p` IS row
  `1024 t + p` of the array, so the written block is that block of the cell applied to the whole batch
  (`Cell.arrC_rows`). The 64 blocks cover all 65536 rows: row `r` lies in the block of point `r / 1024`. Hence after
  the run each result array is the cell applied to the whole batch.
-/
import proofs.«123899_j57784490000883_1_alg».proof.Proof.KernelPay
import proofs.«123899_j57784490000883_1_alg».proof.Proof.CellRows
import proofs.«123899_j57784490000883_1_alg».proof.Proof.Gen.KernelIdeal.Value

set_option maxRecDepth 16384

noncomputable section

namespace Cert.KernelSide

open Cert.KernelIdeal Cert.KernelIdeal.Gen Cert.KernelIdeal.Value Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new cell states of the whole batch, from the argument arrays as the region finds them. -/
abbrev wholeC (c : Dev nD) : S65536x256.Idx → EReal :=
  arrC (R := 65536) (V m c main_arg4) (V m c main_arg5) (V m c main_arg6) (V m c main_arg7) (V m c main_arg8) (V m c main_arg0) (V m c main_arg1) (V m c main_arg2) (V m c main_arg3)

/-- The new hidden states of the whole batch. -/
abbrev wholeH (c : Dev nD) : S65536x256.Idx → EReal :=
  arrH (R := 65536) (V m c main_arg4) (V m c main_arg5) (V m c main_arg6) (V m c main_arg7) (V m c main_arg8) (V m c main_arg0) (V m c main_arg1) (V m c main_arg2) (V m c main_arg3)

/-! ## The index maps, decided over the 64 points -/

/-- The row-tiled windows (the four inputs and the two outputs) sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The weight windows sit at block zero on every axis, at every point. -/
theorem idx_weights : ∀ t : Fin cfg0.N,
    win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of point `t`'s tile is row `1024 t + p` of the batch. -/
def rowAt (t : Fin cfg0.N) (p : Fin 1024) : Fin 65536 :=
  ⟨t.val * 1024 + p.val, by have ht : t.val < 64 := t.isLt; have hp := p.isLt; omega⟩

/-! ## A point's blocks, read -/

theorem blk0 (c : Dev nD) (t : Fin cfg0.N) (p : Fin 1024) (k : Fin 128) :
    (iblk m c 0 t : Vec Ideal S1024x128 .f32) (ix2 p k) = V m c main_arg0 (ix2 (rowAt t p) k) := by
  obtain ⟨e0, e1, -⟩ := idx_rows t
  show V m c main_arg0 (((cfg0.win 0).blk t).view.emb (ix2 p k)) = V m c main_arg0 (ix2 (rowAt t p) k)
  congr 1; funext a; apply Fin.ext
  match a with
  | ⟨0, _⟩ => show win0_0.index t (0 : Fin 2) * 1024 + 1 * p.val = t.val * 1024 + p.val; omega
  | ⟨1, _⟩ => show win0_0.index t (1 : Fin 2) * 128 + 1 * k.val = k.val; omega

theorem blk1 (c : Dev nD) (t : Fin cfg0.N) (p : Fin 1024) :
    (iblk m c 1 t : Vec Ideal S1024x1 .f32) (ix2 p (0 : Fin 1)) = V m c main_arg1 (ix2 (rowAt t p) (0 : Fin 1)) := by
  obtain ⟨-, -, e0, e1, -⟩ := idx_rows t
  show V m c main_arg1 (((cfg0.win 1).blk t).view.emb (ix2 p (0 : Fin 1))) = V m c main_arg1 (ix2 (rowAt t p) (0 : Fin 1))
  congr 1; funext a; apply Fin.ext
  match a with
  | ⟨0, _⟩ => show win0_1.index t (0 : Fin 2) * 1024 + 1 * p.val = t.val * 1024 + p.val; omega
  | ⟨1, _⟩ => show win0_1.index t (1 : Fin 2) * 1 + 1 * 0 = 0; omega

theorem blk2 (c : Dev nD) (t : Fin cfg0.N) (p : Fin 1024) (k : Fin 256) :
    (iblk m c 2 t : Vec Ideal S1024x256 .f32) (ix2 p k) = V m c main_arg2 (ix2 (rowAt t p) k) := by
  obtain ⟨-, -, -, -, e0, e1, -⟩ := idx_rows t
  show V m c main_arg2 (((cfg0.win 2).blk t).view.emb (ix2 p k)) = V m c main_arg2 (ix2 (rowAt t p) k)
  congr 1; funext a; apply Fin.ext
  match a with
  | ⟨0, _⟩ => show win0_2.index t (0 : Fin 2) * 1024 + 1 * p.val = t.val * 1024 + p.val; omega
  | ⟨1, _⟩ => show win0_2.index t (1 : Fin 2) * 256 + 1 * k.val = k.val; omega

theorem blk3 (c : Dev nD) (t : Fin cfg0.N) (p : Fin 1024) (k : Fin 256) :
    (iblk m c 3 t : Vec Ideal S1024x256 .f32) (ix2 p k) = V m c main_arg3 (ix2 (rowAt t p) k) := by
  obtain ⟨-, -, -, -, -, -, e0, e1, -⟩ := idx_rows t
  show V m c main_arg3 (((cfg0.win 3).blk t).view.emb (ix2 p k)) = V m c main_arg3 (ix2 (rowAt t p) k)
  congr 1; funext a; apply Fin.ext
  match a with
  | ⟨0, _⟩ => show win0_3.index t (0 : Fin 2) * 1024 + 1 * p.val = t.val * 1024 + p.val; omega
  | ⟨1, _⟩ => show win0_3.index t (1 : Fin 2) * 256 + 1 * k.val = k.val; omega

theorem blk4 (c : Dev nD) (t : Fin cfg0.N) : (iblk m c 4 t : Vec Ideal S6x256x256 .f32) = V m c main_arg4 := by
  obtain ⟨e0, e1, e2, -⟩ := idx_weights t
  funext y
  show V m c main_arg4 (((cfg0.win 4).blk t).view.emb y) = V m c main_arg4 y
  congr 1; funext a; apply Fin.ext
  match a with
  | ⟨0, _⟩ => show win0_4.index t (0 : Fin 3) * 6 + 1 * (y 0).val = (y 0).val; omega
  | ⟨1, _⟩ => show win0_4.index t (1 : Fin 3) * 256 + 1 * (y 1).val = (y 1).val; omega
  | ⟨2, _⟩ => show win0_4.index t (2 : Fin 3) * 256 + 1 * (y 2).val = (y 2).val; omega

theorem blk5 (c : Dev nD) (t : Fin cfg0.N) : (iblk m c 5 t : Vec Ideal S6x256x128 .f32) = V m c main_arg5 := by
  obtain ⟨-, -, -, e0, e1, e2, -⟩ := idx_weights t
  funext y
  show V m c main_arg5 (((cfg0.win 5).blk t).view.emb y) = V m c main_arg5 y
  congr 1; funext a; apply Fin.ext
  match a with
  | ⟨0, _⟩ => show win0_5.index t (0 : Fin 3) * 6 + 1 * (y 0).val = (y 0).val; omega
  | ⟨1, _⟩ => show win0_5.index t (1 : Fin 3) * 256 + 1 * (y 1).val = (y 1).val; omega
  | ⟨2, _⟩ => show win0_5.index t (2 : Fin 3) * 128 + 1 * (y 2).val = (y 2).val; omega

theorem blk6 (c : Dev nD) (t : Fin cfg0.N) : (iblk m c 6 t : Vec Ideal S5x256x256 .f32) = V m c main_arg6 := by
  obtain ⟨-, -, -, -, -, -, e0, e1, e2, -⟩ := idx_weights t
  funext y
  show V m c main_arg6 (((cfg0.win 6).blk t).view.emb y) = V m c main_arg6 y
  congr 1; funext a; apply Fin.ext
  match a with
  | ⟨0, _⟩ => show win0_6.index t (0 : Fin 3) * 5 + 1 * (y 0).val = (y 0).val; omega
  | ⟨1, _⟩ => show win0_6.index t (1 : Fin 3) * 256 + 1 * (y 1).val = (y 1).val; omega
  | ⟨2, _⟩ => show win0_6.index t (2 : Fin 3) * 256 + 1 * (y 2).val = (y 2).val; omega

theorem blk7 (c : Dev nD) (t : Fin cfg0.N) : (iblk m c 7 t : Vec Ideal S256x1 .f32) = V m c main_arg7 := by
  obtain ⟨-, -, -, -, -, -, -, -, -, e0, e1, -⟩ := idx_weights t
  funext y
  show V m c main_arg7 (((cfg0.win 7).blk t).view.emb y) = V m c main_arg7 y
  congr 1; funext a; apply Fin.ext
  match a with
  | ⟨0, _⟩ => show win0_7.index t (0 : Fin 2) * 256 + 1 * (y 0).val = (y 0).val; omega
  | ⟨1, _⟩ => show win0_7.index t (1 : Fin 2) * 1 + 1 * (y 1).val = (y 1).val; omega

theorem blk8 (c : Dev nD) (t : Fin cfg0.N) : (iblk m c 8 t : Vec Ideal S6x256 .f32) = V m c main_arg8 := by
  obtain ⟨-, -, -, -, -, -, -, -, -, -, -, e0, e1⟩ := idx_weights t
  funext y
  show V m c main_arg8 (((cfg0.win 8).blk t).view.emb y) = V m c main_arg8 y
  congr 1; funext a; apply Fin.ext
  match a with
  | ⟨0, _⟩ => show win0_8.index t (0 : Fin 2) * 6 + 1 * (y 0).val = (y 0).val; omega
  | ⟨1, _⟩ => show win0_8.index t (1 : Fin 2) * 256 + 1 * (y 1).val = (y 1).val; omega

/-- Entry `(p, q)` of point `t`'s output block is entry `(1024 t + p, q)` of the array. -/
theorem emb10 (t : Fin cfg0.N) (p : Fin 1024) (q : Fin 256) :
    ((cfg0.win 10).blk t).view.emb (ix2 p q) = (ix2 (rowAt t p) q : S65536x256.Idx) := by
  obtain ⟨-, -, -, -, -, -, -, -, -, -, e0, e1⟩ := idx_rows t
  funext a; apply Fin.ext
  match a with
  | ⟨0, _⟩ => show win0_10.index t (0 : Fin 2) * 1024 + 1 * p.val = t.val * 1024 + p.val; omega
  | ⟨1, _⟩ => show win0_10.index t (1 : Fin 2) * 256 + 1 * q.val = q.val; omega

theorem emb9 (t : Fin cfg0.N) (p : Fin 1024) (q : Fin 256) :
    ((cfg0.win 9).blk t).view.emb (ix2 p q) = (ix2 (rowAt t p) q : S65536x256.Idx) := by
  obtain ⟨-, -, -, -, -, -, -, -, e0, e1, -⟩ := idx_rows t
  funext a; apply Fin.ext
  match a with
  | ⟨0, _⟩ => show win0_9.index t (0 : Fin 2) * 1024 + 1 * p.val = t.val * 1024 + p.val; omega
  | ⟨1, _⟩ => show win0_9.index t (1 : Fin 2) * 256 + 1 * q.val = q.val; omega

/-! ## What a point writes back -/

/-- Point `t` writes back block `t` of the new cell states of the whole batch. -/
theorem flushedC (c : Dev nD) (t : Fin cfg0.N) :
    (dats m 0 c).flushed 10 t = ((cfg0.win 10).blk t).view.read (Elt Ideal) (wholeC m c) := by
  rw [flushed10 m c t, tileC (iblk m c 0 t) (iblk m c 1 t) (iblk m c 2 t) (iblk m c 3 t) (iblk m c 4 t) (iblk m c 5 t)
    (iblk m c 6 t) (iblk m c 7 t) (iblk m c 8 t), blk4 m c t, blk5 m c t, blk6 m c t, blk7 m c t, blk8 m c t]
  funext j
  revert j
  show ∀ j : S1024x256.Idx, arrC (R := 1024) (V m c main_arg4) (V m c main_arg5) (V m c main_arg6) (V m c main_arg7) (V m c main_arg8) (iblk m c 0 t) (iblk m c 1 t) (iblk m c 2 t) (iblk m c 3 t) j
      = wholeC m c (((cfg0.win 10).blk t).view.emb j)
  intro j
  obtain ⟨p, q, rfl⟩ : ∃ (p : Fin 1024) (q : Fin 256), j = ix2 p q := ⟨j 0, j 1, eq_ix2 j⟩
  rw [emb10 t p q]
  exact arrC_rows _ _ _ _ _ _ _ _ _ _ _ _ _ p (rowAt t p) (fun k => blk0 m c t p k) (blk1 m c t p)
    (fun k => blk2 m c t p k) (fun k => blk3 m c t p k) q

/-- Point `t` writes back block `t` of the new hidden states of the whole batch. -/
theorem flushedH (c : Dev nD) (t : Fin cfg0.N) :
    (dats m 0 c).flushed 9 t = ((cfg0.win 9).blk t).view.read (Elt Ideal) (wholeH m c) := by
  rw [flushed9 m c t, tileH (iblk m c 0 t) (iblk m c 1 t) (iblk m c 2 t) (iblk m c 3 t) (iblk m c 4 t) (iblk m c 5 t)
    (iblk m c 6 t) (iblk m c 7 t) (iblk m c 8 t), blk4 m c t, blk5 m c t, blk6 m c t, blk7 m c t, blk8 m c t]
  funext j
  revert j
  show ∀ j : S1024x256.Idx, arrH (R := 1024) (V m c main_arg4) (V m c main_arg5) (V m c main_arg6) (V m c main_arg7) (V m c main_arg8) (iblk m c 0 t) (iblk m c 1 t) (iblk m c 2 t) (iblk m c 3 t) j
      = wholeH m c (((cfg0.win 9).blk t).view.emb j)
  intro j
  obtain ⟨p, q, rfl⟩ : ∃ (p : Fin 1024) (q : Fin 256), j = ix2 p q := ⟨j 0, j 1, eq_ix2 j⟩
  rw [emb9 t p q]
  exact arrH_rows _ _ _ _ _ _ _ _ _ _ _ _ _ p (rowAt t p) (fun k => blk0 m c t p k) (blk1 m c t p)
    (fun k => blk2 m c t p k) (fun k => blk3 m c t p k) q

/-! ## The blocks cover the arrays -/

/-- An index of the array is in point `t`'s block iff each coordinate is in the block's range on its axis. -/
theorem mem_blk10 (t : Fin cfg0.N) (i : S65536x256.Idx) :
    i ∈ ((cfg0.win 10).blk t).view.set ↔ ∀ a : Fin 2, win0_10.index t a * S1024x256.size a ≤ (i a).val
      ∧ (i a).val < win0_10.index t a * S1024x256.size a + S1024x256.size a := by
  show i ∈ ((View.whole main_v0_1).slice (win0_10.rect t)).set ↔ _
  rw [View.set_slice_whole, Rect.mem_set_unit]
  exact Iff.rfl

theorem mem_blk9 (t : Fin cfg0.N) (i : S65536x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v0_0).slice (win0_9.rect t)).set ↔ _
  rw [View.set_slice_whole, Rect.mem_set_unit]
  exact Iff.rfl

/-- Row `r` of the new cell states lies in the block of point `r / 1024`. -/
theorem coverC (i : S65536x256.Idx) : ∃ t : Fin cfg0.N, (cfg0.win 10).flush t = true ∧ i ∈ ((cfg0.win 10).blk t).view.set := by
  have hi0 : (i 0).val < 65536 := (i 0).isLt
  have hi1 : (i 1).val < 256 := (i 1).isLt
  let t : Fin cfg0.N := ⟨(i 0).val / 1024, by show (i 0).val / 1024 < 64; omega⟩
  obtain ⟨-, -, -, -, -, -, -, -, -, -, e0, e1⟩ := idx_rows t
  have ht : t.val = (i 0).val / 1024 := rfl
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 256 ≤ (i 1).val ∧ (i 1).val < win0_10.index t (1 : Fin 2) * 256 + 256; omega

/-- Row `r` of the new hidden states lies in the block of point `r / 1024`. -/
theorem coverH (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  let t : Fin cfg0.N := ⟨(i 0).val / 1024, by show (i 0).val / 1024 < 64; omega⟩
  obtain ⟨-, -, -, -, -, -, -, -, e0, e1, -⟩ := idx_rows t
  have ht : t.val = (i 0).val / 1024 := rfl
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-! ## The arrays after the run -/

theorem finalC (c : Dev nD) : (dats m 0 c).arrAt 10 cfg0.N = wholeC m c :=
  (dats m 0 c).arrAt_eq_of_cover 10 (wholeC m c) (fun t _ => flushedC m c t) coverC

theorem finalH (c : Dev nD) : (dats m 0 c).arrAt 9 cfg0.N = wholeH m c :=
  (dats m 0 c).arrAt_eq_of_cover 9 (wholeH m c) (fun t _ => flushedH m c t) coverH

/-- Every weakly fair execution of the kernel program ends with the first result at the new hidden states and the second
    at the new cell states of the whole batch, the arguments unchanged. -/
theorem run : θ_run defs (onTc (τ := τ) (main (F := Ideal))) ⟨m, fun _ => 0, ρ⟩ fun r => ∀ c : Dev nD,
      r.2.mem ((c : Thread nD τ).loc main_v0_0) = wholeH m c
      ∧ r.2.mem ((c : Thread nD τ).loc main_v0_1) = wholeC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (finalH m c), (h c).2.1.trans (finalC m c), (h c).2.2⟩)
    (run_blocks m ρ)

end Cert.KernelSide

end
-- ==== Proof.RefCell.lean ====
/-
  The reference program read one entry at a time. Entry (r, o) of each of its arrays is a function of row r of the
  batch alone: the two stacked matrix products are inner products of the row with a weight row, the time-gap product
  contracts an axis of size one, and every later array is an entrywise function of these. Followed through the
  program's operations in order, the entry of the new cell state is the cell's `newC` of the row and the entry of the
  new hidden state its `newH`.
-/
import proofs.«123899_j57784490000883_1_alg».proof.Proof.Gen.ReferenceIdeal.Read
import proofs.«123899_j57784490000883_1_alg».proof.Proof.Cell
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.TcCoe Idealize.ShloMosaic.ValueIdx Cert.Cell

section Entries

variable (x0 : (⟨S65536x128, .f32⟩ : BufTy).Contents (Elt Ideal)) (x1 : (⟨S65536x1, .f32⟩ : BufTy).Contents (Elt Ideal))
  (x2 x3 : (⟨S65536x256, .f32⟩ : BufTy).Contents (Elt Ideal)) (x4 : (⟨S6x256x256, .f32⟩ : BufTy).Contents (Elt Ideal))
  (x5 : (⟨S6x256x128, .f32⟩ : BufTy).Contents (Elt Ideal)) (x6 : (⟨S5x256x256, .f32⟩ : BufTy).Contents (Elt Ideal))
  (x7 : (⟨S256x1, .f32⟩ : BufTy).Contents (Elt Ideal)) (x8 : (⟨S6x256, .f32⟩ : BufTy).Contents (Elt Ideal))

/-! ## The two stacked products with the weights: entry (g, r, o) is an inner product of row r with weight row (g, o) -/

/-- Entry (g, r, o) of the transposed product of the recurrent weights with h_prev. -/
theorem v1_at (g : Fin 6) (r : Fin 65536) (o : Fin 256) :
    val_main_v1 (F := Ideal) x2 x4 (ix3 g r o) = inner (fun k => x2 (ix2 r k)) (fun k => x4 (ix3 g o k)) := by
  rw [val_main_v1_apply, val_main_v0_apply]
  refine (Finset.sum_congr rfl fun k _ => ?_).trans (inner_comm _ _)
  have el : lidx_main_v0 (idx_main_v1 (ix3 g r o)) k = ix3 g o k :=
    funext fun a => Fin.ext (by match a with | ⟨0, _⟩ => rfl | ⟨1, _⟩ => rfl | ⟨2, _⟩ => rfl)
  have er : ridx_main_v0 (idx_main_v1 (ix3 g r o)) k = ix2 r k :=
    funext fun a => Fin.ext (by match a with | ⟨0, _⟩ => rfl | ⟨1, _⟩ => rfl)
  rw [el, er]

/-- Entry (g, r, o) of the transposed product of the input weights with x_t. -/
theorem v3_at (g : Fin 6) (r : Fin 65536) (o : Fin 256) :
    val_main_v3 (F := Ideal) x0 x5 (ix3 g r o) = inner (fun k => x0 (ix2 r k)) (fun k => x5 (ix3 g o k)) := by
  rw [val_main_v3_apply, val_main_v2_apply]
  refine (Finset.sum_congr rfl fun k _ => ?_).trans (inner_comm _ _)
  have el : lidx_main_v2 (idx_main_v3 (ix3 g r o)) k = ix3 g o k :=
    funext fun a => Fin.ext (by match a with | ⟨0, _⟩ => rfl | ⟨1, _⟩ => rfl | ⟨2, _⟩ => rfl)
  have er : ridx_main_v2 (idx_main_v3 (ix3 g r o)) k = ix2 r k :=
    funext fun a => Fin.ext (by match a with | ⟨0, _⟩ => rfl | ⟨1, _⟩ => rfl)
  rw [el, er]

/-! ## Slab 0 and the time-aware state -/

/-- Dropping a leading axis of size one: entry (r, o) of the matrix is entry (0, r, o) of the slab. -/
theorem idx_v5_at (r : Fin 65536) (o : Fin 256) : idx_main_v5 (ix2 r o) = ix3 (0 : Fin 1) r o :=
  funext fun a => Fin.ext (by
    match a with
    | ⟨0, _⟩ => rfl
    | ⟨1, _⟩ => show (r.val * 256 + o.val) / 256 % 65536 = r.val; omega
    | ⟨2, _⟩ => show (r.val * 256 + o.val) % 256 = o.val; omega)

/-- Slab 0 of the recurrent product. -/
theorem v5_at (r : Fin 65536) (o : Fin 256) :
    val_main_v5 (F := Ideal) x2 x4 (ix2 r o) = inner (fun k => x2 (ix2 r k)) (fun k => x4 (ix3 (0 : Fin 6) o k)) := by
  rw [val_main_v5_apply, idx_v5_at, val_main_v4_apply]
  have e : idx_main_v4 (ix3 (0 : Fin 1) r o) = ix3 (0 : Fin 6) r o :=
    funext fun a => Fin.ext (by match a with | ⟨0, _⟩ => rfl | ⟨1, _⟩ => rfl | ⟨2, _⟩ => rfl)
  rw [e, v1_at]

/-- Slab 0 of the input product. -/
theorem v7_at (r : Fin 65536) (o : Fin 256) :
    val_main_v7 (F := Ideal) x0 x5 (ix2 r o) = inner (fun k => x0 (ix2 r k)) (fun k => x5 (ix3 (0 : Fin 6) o k)) := by
  rw [val_main_v7_apply, show idx_main_v7 (ix2 r o) = ix3 (0 : Fin 1) r o from idx_v5_at r o, val_main_v6_apply]
  have e : idx_main_v6 (ix3 (0 : Fin 1) r o) = ix3 (0 : Fin 6) r o :=
    funext fun a => Fin.ext (by match a with | ⟨0, _⟩ => rfl | ⟨1, _⟩ => rfl | ⟨2, _⟩ => rfl)
  rw [e, v3_at]

/-- The time-gap term: the product contracts an axis of size one, so its sum has the one term. -/
theorem v10_at (r : Fin 65536) (o : Fin 256) :
    val_main_v10 (F := Ideal) x1 x7 (ix2 r o) = x1 (ix2 r (0 : Fin 1)) * x7 (ix2 o (0 : Fin 1)) := by
  rw [val_main_v10_apply, sum_fin_one, val_main_v9_apply]
  have el : lidx_main_v10 (ix2 r o) (0 : Fin 1) = ix2 r (0 : Fin 1) :=
    funext fun a => Fin.ext (by match a with | ⟨0, _⟩ => rfl | ⟨1, _⟩ => rfl)
  have er : idx_main_v9 (ridx_main_v10 (ix2 r o) (0 : Fin 1)) = ix2 o (0 : Fin 1) :=
    funext fun a => Fin.ext (by match a with | ⟨0, _⟩ => rfl | ⟨1, _⟩ => rfl)
  rw [el, er]

/-- The bias of slab 0, broadcast along the batch. -/
theorem v15_at (r : Fin 65536) (o : Fin 256) :
    val_main_v15 (F := Ideal) x8 (ix2 r o) = x8 (ix2 (0 : Fin 6) o) := by
  rw [val_main_v15_apply, val_main_v14_apply, val_main_v13_apply, val_main_v12_apply]
  have e : idx_main_v12 (idx_main_v13 (idx_main_v14 (idx_main_v15 (ix2 r o)))) = ix2 (0 : Fin 6) o :=
    funext fun a => Fin.ext (by
      match a with
      | ⟨0, _⟩ => rfl
      | ⟨1, _⟩ => show o.val % 256 = o.val; omega)
  rw [e]

/-- The time-aware state of row r at o. -/
theorem v17_at (r : Fin 65536) (o : Fin 256) :
    val_main_v17 (F := Ideal) x0 x1 x2 x4 x5 x7 x8 (ix2 r o)
      = state x4 x5 x7 x8 (fun k => x2 (ix2 r k)) (fun k => x0 (ix2 r k)) (x1 (ix2 r (0 : Fin 1))) o := by
  rw [val_main_v17_apply, val_main_v16_apply, val_main_v11_apply, val_main_v8_apply, v5_at, v7_at, v10_at, v15_at]
  rfl

/-! ## The products of the state with the state weights, and the five pre-activations -/

/-- Entry (j, r, o) of the transposed product of the state weights with the state. -/
theorem v19_at (j : Fin 5) (r : Fin 65536) (o : Fin 256) :
    val_main_v19 (F := Ideal) x0 x1 x2 x4 x5 x6 x7 x8 (ix3 j r o)
      = inner (state x4 x5 x7 x8 (fun k => x2 (ix2 r k)) (fun k => x0 (ix2 r k)) (x1 (ix2 r (0 : Fin 1))))
          (fun k => x6 (ix3 j o k)) := by
  rw [val_main_v19_apply, val_main_v18_apply]
  refine (Finset.sum_congr rfl fun k _ => ?_).trans (inner_comm _ _)
  have el : lidx_main_v18 (idx_main_v19 (ix3 j r o)) k = ix3 j o k :=
    funext fun a => Fin.ext (by match a with | ⟨0, _⟩ => rfl | ⟨1, _⟩ => rfl | ⟨2, _⟩ => rfl)
  have er : ridx_main_v18 (idx_main_v19 (ix3 j r o)) k = ix2 r k :=
    funext fun a => Fin.ext (by match a with | ⟨0, _⟩ => rfl | ⟨1, _⟩ => rfl)
  rw [el, er, v17_at]

/-- Gate j + 1 among the six stacked gates. -/
abbrev gateOf (j : Fin 5) : Fin 6 := ⟨1 + j.val, by have := j.isLt; omega⟩

/-- Slabs 1 to 5 of the recurrent product. -/
theorem v20_at (j : Fin 5) (r : Fin 65536) (o : Fin 256) :
    val_main_v20 (F := Ideal) x2 x4 (ix3 j r o)
      = inner (fun k => x2 (ix2 r k)) (fun k => x4 (ix3 (gateOf j) o k)) := by
  rw [val_main_v20_apply]
  have e : idx_main_v20 (ix3 j r o) = ix3 (gateOf j) r o :=
    funext fun a => Fin.ext (by match a with | ⟨0, _⟩ => rfl | ⟨1, _⟩ => rfl | ⟨2, _⟩ => rfl)
  rw [e, v1_at]

/-- Slabs 1 to 5 of the input product. -/
theorem v21_at (j : Fin 5) (r : Fin 65536) (o : Fin 256) :
    val_main_v21 (F := Ideal) x0 x5 (ix3 j r o)
      = inner (fun k => x0 (ix2 r k)) (fun k => x5 (ix3 (gateOf j) o k)) := by
  rw [val_main_v21_apply]
  have e : idx_main_v21 (ix3 j r o) = ix3 (gateOf j) r o :=
    funext fun a => Fin.ext (by match a with | ⟨0, _⟩ => rfl | ⟨1, _⟩ => rfl | ⟨2, _⟩ => rfl)
  rw [e, v3_at]

/-- Biases 1 to 5, broadcast along the batch. -/
theorem v26_at (j : Fin 5) (r : Fin 65536) (o : Fin 256) :
    val_main_v26 (F := Ideal) x8 (ix3 j r o) = x8 (ix2 (gateOf j) o) := by
  rw [val_main_v26_apply, val_main_v25_apply, val_main_v24_apply]
  have e : idx_main_v24 (idx_main_v25 (idx_main_v26 (ix3 j r o))) = ix2 (gateOf j) o :=
    funext fun a => Fin.ext (by match a with | ⟨0, _⟩ => rfl | ⟨1, _⟩ => rfl)
  rw [e]

/-- The pre-activation of gate j + 1 of row r at o. -/
theorem v27_at (j : Fin 5) (r : Fin 65536) (o : Fin 256) :
    val_main_v27 (F := Ideal) x0 x1 x2 x4 x5 x6 x7 x8 (ix3 j r o)
      = pre x4 x5 x6 x8 (gateOf j) j (fun k => x2 (ix2 r k)) (fun k => x0 (ix2 r k))
          (state x4 x5 x7 x8 (fun k => x2 (ix2 r k)) (fun k => x0 (ix2 r k)) (x1 (ix2 r (0 : Fin 1)))) o := by
  rw [val_main_v27_apply, val_main_v23_apply, val_main_v22_apply, v20_at, v21_at, v19_at, v26_at]
  rfl

/-! ## The five gates

  The program spells the logistic function as 1 / (1 + exp (-z)) with the constant word of 1; that is the extended
  reals' logistic function by its definition once the word is read as 1. -/

/-- The constant word of the program is 1. -/
theorem one_word : Ideal.ofBits .f32 0x3F800000#32 = 1 := by
  simp [Ideal.ofBits, Ideal.ieee, -EReal.coe_mul]; norm_num

/-- The spelt-out logistic function is the logistic function. -/
theorem sigmoid_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [one_word]

/-- Slab 0 of the pre-activations: the forget gate's. -/
theorem v29_at (r : Fin 65536) (o : Fin 256) :
    val_main_v29 (F := Ideal) x0 x1 x2 x4 x5 x6 x7 x8 (ix2 r o)
      = pre x4 x5 x6 x8 1 0 (fun k => x2 (ix2 r k)) (fun k => x0 (ix2 r k))
          (state x4 x5 x7 x8 (fun k => x2 (ix2 r k)) (fun k => x0 (ix2 r k)) (x1 (ix2 r (0 : Fin 1)))) o := by
  rw [val_main_v29_apply, show idx_main_v29 (ix2 r o) = ix3 (0 : Fin 1) r o from idx_v5_at r o, val_main_v28_apply]
  have e : idx_main_v28 (ix3 (0 : Fin 1) r o) = ix3 (0 : Fin 5) r o :=
    funext fun a => Fin.ext (by match a with | ⟨0, _⟩ => rfl | ⟨1, _⟩ => rfl | ⟨2, _⟩ => rfl)
  rw [e, v27_at]
  rfl

/-- Slab 1: the input gate's. -/
theorem v37_at (r : Fin 65536) (o : Fin 256) :
    val_main_v37 (F := Ideal) x0 x1 x2 x4 x5 x6 x7 x8 (ix2 r o)
      = pre x4 x5 x6 x8 2 1 (fun k => x2 (ix2 r k)) (fun k => x0 (ix2 r k))
          (state x4 x5 x7 x8 (fun k => x2 (ix2 r k)) (fun k => x0 (ix2 r k)) (x1 (ix2 r (0 : Fin 1)))) o := by
  rw [val_main_v37_apply, show idx_main_v37 (ix2 r o) = ix3 (0 : Fin 1) r o from idx_v5_at r o, val_main_v36_apply]
  have e : idx_main_v36 (ix3 (0 : Fin 1) r o) = ix3 (1 : Fin 5) r o :=
    funext fun a => Fin.ext (by match a with | ⟨0, _⟩ => rfl | ⟨1, _⟩ => rfl | ⟨2, _⟩ => rfl)
  rw [e, v27_at]
  rfl

/-- Slab 2: the time gate's. -/
theorem v45_at (r : Fin 65536) (o : Fin 256) :
    val_main_v45 (F := Ideal) x0 x1 x2 x4 x5 x6 x7 x8 (ix2 r o)
      = pre x4 x5 x6 x8 3 2 (fun k => x2 (ix2 r k)) (fun k => x0 (ix2 r k))
          (state x4 x5 x7 x8 (fun k => x2 (ix2 r k)) (fun k => x0 (ix2 r k)) (x1 (ix2 r (0 : Fin 1)))) o := by
  rw [val_main_v45_apply, show idx_main_v45 (ix2 r o) = ix3 (0 : Fin 1) r o from idx_v5_at r o, val_main_v44_apply]
  have e : idx_main_v44 (ix3 (0 : Fin 1) r o) = ix3 (2 : Fin 5) r o :=
    funext fun a => Fin.ext (by match a with | ⟨0, _⟩ => rfl | ⟨1, _⟩ => rfl | ⟨2, _⟩ => rfl)
  rw [e, v27_at]
  rfl

/-- Slab 3: the candidate's. -/
theorem v53_at (r : Fin 65536) (o : Fin 256) :
    val_main_v53 (F := Ideal) x0 x1 x2 x4 x5 x6 x7 x8 (ix2 r o)
      = pre x4 x5 x6 x8 4 3 (fun k => x2 (ix2 r k)) (fun k => x0 (ix2 r k))
          (state x4 x5 x7 x8 (fun k => x2 (ix2 r k)) (fun k => x0 (ix2 r k)) (x1 (ix2 r (0 : Fin 1)))) o := by
  rw [val_main_v53_apply, show idx_main_v53 (ix2 r o) = ix3 (0 : Fin 1) r o from idx_v5_at r o, val_main_v52_apply]
  have e : idx_main_v52 (ix3 (0 : Fin 1) r o) = ix3 (3 : Fin 5) r o :=
    funext fun a => Fin.ext (by match a with | ⟨0, _⟩ => rfl | ⟨1, _⟩ => rfl | ⟨2, _⟩ => rfl)
  rw [e, v27_at]
  rfl

/-- Slab 4: the output gate's. -/
theorem v56_at (r : Fin 65536) (o : Fin 256) :
    val_main_v56 (F := Ideal) x0 x1 x2 x4 x5 x6 x7 x8 (ix2 r o)
      = pre x4 x5 x6 x8 5 4 (fun k => x2 (ix2 r k)) (fun k => x0 (ix2 r k))
          (state x4 x5 x7 x8 (fun k => x2 (ix2 r k)) (fun k => x0 (ix2 r k)) (x1 (ix2 r (0 : Fin 1)))) o := by
  rw [val_main_v56_apply, show idx_main_v56 (ix2 r o) = ix3 (0 : Fin 1) r o from idx_v5_at r o, val_main_v55_apply]
  have e : idx_main_v55 (ix3 (0 : Fin 1) r o) = ix3 (4 : Fin 5) r o :=
    funext fun a => Fin.ext (by match a with | ⟨0, _⟩ => rfl | ⟨1, _⟩ => rfl | ⟨2, _⟩ => rfl)
  rw [e, v27_at]
  rfl

/-- The forget gate. -/
theorem v35_at (r : Fin 65536) (o : Fin 256) :
    val_main_v35 (F := Ideal) x0 x1 x2 x4 x5 x6 x7 x8 (ix2 r o)
      = Ideal.logistic (pre x4 x5 x6 x8 1 0 (fun k => x2 (ix2 r k)) (fun k => x0 (ix2 r k))
          (state x4 x5 x7 x8 (fun k => x2 (ix2 r k)) (fun k => x0 (ix2 r k)) (x1 (ix2 r (0 : Fin 1)))) o) := by
  rw [val_main_v35_apply, val_main_v34_apply, val_main_cst_0_apply, val_main_v33_apply, val_main_v32_apply,
    val_main_cst_apply, val_main_v31_apply, val_main_v30_apply, sigmoid_spelt, v29_at]

/-- The input gate. -/
theorem v43_at (r : Fin 65536) (o : Fin 256) :
    val_main_v43 (F := Ideal) x0 x1 x2 x4 x5 x6 x7 x8 (ix2 r o)
      = Ideal.logistic (pre x4 x5 x6 x8 2 1 (fun k => x2 (ix2 r k)) (fun k => x0 (ix2 r k))
          (state x4 x5 x7 x8 (fun k => x2 (ix2 r k)) (fun k => x0 (ix2 r k)) (x1 (ix2 r (0 : Fin 1)))) o) := by
  rw [val_main_v43_apply, val_main_v42_apply, val_main_cst_2_apply, val_main_v41_apply, val_main_v40_apply,
    val_main_cst_1_apply, val_main_v39_apply, val_main_v38_apply, sigmoid_spelt, v37_at]

/-- The time gate. -/
theorem v51_at (r : Fin 65536) (o : Fin 256) :
    val_main_v51 (F := Ideal) x0 x1 x2 x4 x5 x6 x7 x8 (ix2 r o)
      = Ideal.logistic (pre x4 x5 x6 x8 3 2 (fun k => x2 (ix2 r k)) (fun k => x0 (ix2 r k))
          (state x4 x5 x7 x8 (fun k => x2 (ix2 r k)) (fun k => x0 (ix2 r k)) (x1 (ix2 r (0 : Fin 1)))) o) := by
  rw [val_main_v51_apply, val_main_v50_apply, val_main_cst_4_apply, val_main_v49_apply, val_main_v48_apply,
    val_main_cst_3_apply, val_main_v47_apply, val_main_v46_apply, sigmoid_spelt, v45_at]

/-- The output gate. -/
theorem v62_at (r : Fin 65536) (o : Fin 256) :
    val_main_v62 (F := Ideal) x0 x1 x2 x4 x5 x6 x7 x8 (ix2 r o)
      = Ideal.logistic (pre x4 x5 x6 x8 5 4 (fun k => x2 (ix2 r k)) (fun k => x0 (ix2 r k))
          (state x4 x5 x7 x8 (fun k => x2 (ix2 r k)) (fun k => x0 (ix2 r k)) (x1 (ix2 r (0 : Fin 1)))) o) := by
  rw [val_main_v62_apply, val_main_v61_apply, val_main_cst_6_apply, val_main_v60_apply, val_main_v59_apply,
    val_main_cst_5_apply, val_main_v58_apply, val_main_v57_apply, sigmoid_spelt, v56_at]

/-- The candidate. -/
theorem v54_at (r : Fin 65536) (o : Fin 256) :
    val_main_v54 (F := Ideal) x0 x1 x2 x4 x5 x6 x7 x8 (ix2 r o)
      = Ideal.tanh (pre x4 x5 x6 x8 4 3 (fun k => x2 (ix2 r k)) (fun k => x0 (ix2 r k))
          (state x4 x5 x7 x8 (fun k => x2 (ix2 r k)) (fun k => x0 (ix2 r k)) (x1 (ix2 r (0 : Fin 1)))) o) := by
  rw [val_main_v54_apply, v53_at]
  rfl

/-! ## The two results -/

/-- Entry (r, o) of the new cell state: forget · c_prev + input · candidate + time · state, added in that order. -/
theorem v67_at (r : Fin 65536) (o : Fin 256) :
    val_main_v67 (F := Ideal) x0 x1 x2 x3 x4 x5 x6 x7 x8 (ix2 r o)
      = newC x4 x5 x6 x7 x8 (fun k => x2 (ix2 r k)) (fun k => x0 (ix2 r k)) (fun k => x3 (ix2 r k))
          (x1 (ix2 r (0 : Fin 1))) o := by
  rw [val_main_v67_apply, val_main_v65_apply, val_main_v63_apply, val_main_v64_apply, val_main_v66_apply,
    v35_at, v43_at, v54_at, v51_at, v17_at]
  rfl

/-- Entry (r, o) of the new hidden state: output gate · tanh of the new cell state. -/
theorem v69_at (r : Fin 65536) (o : Fin 256) :
    val_main_v69 (F := Ideal) x0 x1 x2 x3 x4 x5 x6 x7 x8 (ix2 r o)
      = newH x4 x5 x6 x7 x8 (fun k => x2 (ix2 r k)) (fun k => x0 (ix2 r k)) (fun k => x3 (ix2 r k))
          (x1 (ix2 r (0 : Fin 1))) o := by
  rw [val_main_v69_apply, val_main_v68_apply, v62_at, v67_at]
  rfl

end Entries

/-! ## The arrays: every index is a pair (r, o) -/

/-- The reference's new cell states are the cell's, row by row. -/
theorem ref_arrC (x0 : (⟨S65536x128, .f32⟩ : BufTy).Contents (Elt Ideal)) (x1 : (⟨S65536x1, .f32⟩ : BufTy).Contents (Elt Ideal)) (x2 x3 : (⟨S65536x256, .f32⟩ : BufTy).Contents (Elt Ideal)) (x4 : (⟨S6x256x256, .f32⟩ : BufTy).Contents (Elt Ideal)) (x5 : (⟨S6x256x128, .f32⟩ : BufTy).Contents (Elt Ideal)) (x6 : (⟨S5x256x256, .f32⟩ : BufTy).Contents (Elt Ideal)) (x7 : (⟨S256x1, .f32⟩ : BufTy).Contents (Elt Ideal)) (x8 : (⟨S6x256, .f32⟩ : BufTy).Contents (Elt Ideal)) :
    val_main_v67 (F := Ideal) x0 x1 x2 x3 x4 x5 x6 x7 x8 = arrC (R := 65536) x4 x5 x6 x7 x8 x0 x1 x2 x3 := by
  funext i
  obtain ⟨r, o, rfl⟩ : ∃ (r : Fin 65536) (o : Fin 256), i = ix2 r o := ⟨i 0, i 1, eq_ix2 i⟩
  exact v67_at x0 x1 x2 x3 x4 x5 x6 x7 x8 r o

/-- The reference's new hidden states are the cell's, row by row. -/
theorem ref_arrH (x0 : (⟨S65536x128, .f32⟩ : BufTy).Contents (Elt Ideal)) (x1 : (⟨S65536x1, .f32⟩ : BufTy).Contents (Elt Ideal)) (x2 x3 : (⟨S65536x256, .f32⟩ : BufTy).Contents (Elt Ideal)) (x4 : (⟨S6x256x256, .f32⟩ : BufTy).Contents (Elt Ideal)) (x5 : (⟨S6x256x128, .f32⟩ : BufTy).Contents (Elt Ideal)) (x6 : (⟨S5x256x256, .f32⟩ : BufTy).Contents (Elt Ideal)) (x7 : (⟨S256x1, .f32⟩ : BufTy).Contents (Elt Ideal)) (x8 : (⟨S6x256, .f32⟩ : BufTy).Contents (Elt Ideal)) :
    val_main_v69 (F := Ideal) x0 x1 x2 x3 x4 x5 x6 x7 x8 = arrH (R := 65536) x4 x5 x6 x7 x8 x0 x1 x2 x3 := by
  funext i
  obtain ⟨r, o, rfl⟩ : ∃ (r : Fin 65536) (o : Fin 256), i = ix2 r o := ⟨i 0, i 1, eq_ix2 i⟩
  exact v69_at x0 x1 x2 x3 x4 x5 x6 x7 x8 r o

end Cert.RefSide

end
-- ==== Proof.lean ====
/-
  A time-aware LSTM cell, one fused kernel against its jnp reference, equal over the extended reals.

  Both programs compute, for every row `r` of a batch of 65536 rows and every output `o` of 256,

    s   = tanh (⟨h_r, Wh₀ o⟩ + ⟨x_r, Wx₀ o⟩ + δ_r · Wst o + b₀ o)
    g_k = ⟨h_r, Wh_k o⟩ + ⟨x_r, Wx_k o⟩ + ⟨s, Ws_{k-1} o⟩ + b_k o                       (k = 1 … 5)
    c'  = σ g₁ · c_r o + σ g₂ · tanh g₄ + σ g₃ · s o,          h' = σ g₅ · tanh c'

  (`Cell.lean`). The kernel does it tile by tile: 64 grid points, each on 1024 rows, the weights resident; it narrows
  every matrix operand before a product, which changes nothing over the reals, multiplies the tile's rows by a
  transposed weight slab (the data on the left of each product), forms the time-gap term as a broadcast product, and
  applies one logistic operation per gate. The reference does it on the whole batch: three stacked `dot_general`s with
  the weights on the left of each product, a product that contracts an axis of size one for the time-gap term, and each
  logistic spelt `1 / (1 + exp (-x))`, which is the logistic function by definition. Both add their terms in the same
  order, so the two sides differ only by the commutativity of the product inside each inner product; the inputs'
  finiteness is never used.

  The kernel side: each payload at an entry (`KernelPay.lean`, over the building blocks of `KernelOps.lean`), a tile's
  row is a row of the batch (`CellRows.lean`), the 64 written blocks cover the arrays (`KernelArray.lean`). The reference
  side: its operations read one entry at a time (`RefCell.lean`). The frames of the two kernel programs and the
  reference's run are the generated ones; nothing was rewritten when the kernel was idealized, so the idealization claim
  is trivial.
-/
import proofs.«123899_j57784490000883_1_alg».proof.Defs
import proofs.«123899_j57784490000883_1_alg».proof.Proof.Gen.Kernel
import proofs.«123899_j57784490000883_1_alg».proof.Proof.Gen.Kernel.Skeleton
import proofs.«123899_j57784490000883_1_alg».proof.Proof.Gen.Kernel.Launch
import proofs.«123899_j57784490000883_1_alg».proof.Proof.Gen.Kernel.Points
import proofs.«123899_j57784490000883_1_alg».proof.Proof.Gen.Kernel.Frame
import proofs.«123899_j57784490000883_1_alg».proof.Proof.Gen.KernelIdeal
import proofs.«123899_j57784490000883_1_alg».proof.Proof.Gen.KernelIdeal.Skeleton
import proofs.«123899_j57784490000883_1_alg».proof.Proof.Gen.KernelIdeal.Launch
import proofs.«123899_j57784490000883_1_alg».proof.Proof.Gen.KernelIdeal.Points
import proofs.«123899_j57784490000883_1_alg».proof.Proof.Gen.KernelIdeal.Frame
import proofs.«123899_j57784490000883_1_alg».proof.Proof.Gen.ReferenceIdeal
import proofs.«123899_j57784490000883_1_alg».proof.Proof.Gen.Pre_finite_inputs
import proofs.«123899_j57784490000883_1_alg».proof.Proof.Gen.KernelIdeal.Value
import proofs.«123899_j57784490000883_1_alg».proof.Proof.Gen.ReferenceIdeal.Run
import proofs.«123899_j57784490000883_1_alg».proof.Proof.Gen.ReferenceIdeal.Read
import proofs.«123899_j57784490000883_1_alg».proof.Proof.KernelArray
import proofs.«123899_j57784490000883_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments, the kernel ends with its results at the cell applied to the whole
    batch (`KernelSide.run`) and so does the reference (`RefSide.ref_arrH`, `ref_arrC`), the first results paired being
    the new hidden states and the second the new cell states. -/
theorem algebraic : Cert.algebraic_KernelIdeal_ReferenceIdeal := by
  intro m ρ m' ρ' _ hagree
  refine ⟨fun c => Cert.KernelSide.wholeH m c, fun c => Cert.KernelSide.wholeC m c, Cert.KernelSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v69_eq, Cert.RefSide.ref_arrH, a0, a1, a2, a3, a4, a5, a6, a7, a8]
  · obtain ⟨a0, a1, a2, a3, a4, a5, a6, a7, a8⟩ := hagree c
    rw [Cert.ReferenceIdeal.Read.val_main_v67_eq, Cert.RefSide.ref_arrC, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
